-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S1000x1000 : Shape := ⟨2, ![1000, 1000]⟩
abbrev S32768 : Shape := ⟨1, ![32768]⟩
abbrev S_ : Shape := ⟨0, ![]⟩
abbrev S32768x1 : Shape := ⟨2, ![32768, 1]⟩
abbrev S32768x2 : Shape := ⟨2, ![32768, 2]⟩

class Facts : Prop where
  reducesTo_S32768x1000_S32768_d1 : S32768x1000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  concatenates_S32768x1_S32768x1_S32768x2_d1 : Shape.Concatenates [S32768x1, S32768x1] S32768x2 1
  bcast_S_S32768x1000 : S_.BroadcastsInDim S32768x1000 (![] : Fin 0 → Fin S32768x1000.rank)
  reducesTo_S32768x1000_S_d0_1 : S32768x1000.ReducesTo [0, 1] S_
  bcast_S_S1000x1000 : S_.BroadcastsInDim S1000x1000 (![] : Fin 0 → Fin S1000x1000.rank)
  reducesTo_S1000x1000_S_d0_1 : S1000x1000.ReducesTo [0, 1] S_
  reducesTo_S32768_S_d0 : S32768.ReducesTo [0] S_
  dot_S32768x1000_S1000x1000_S32768x1000_1_0_0_1_n_n_wf : DotDims.WF S32768x1000 S1000x1000 S32768x1000 [1] [0] [0] [1] [] []
  gather_S32768x1000_S32768x2_S32768_n_01_n_n_01_1_11_wf : GatherDims.WF S32768x1000 S32768x2 S32768 [] [0, 1] [] [0, 1] [] 1 ![1, 1]

variable [Facts]

def dot_S32768x1000_S1000x1000_S32768x1000_1_0_0_1_n_n : DotDims S32768x1000 S1000x1000 S32768x1000 where
  lhsContracting := [1]
  rhsContracting := [0]
  lhsNonContracting := [0]
  rhsNonContracting := [1]
  lhsBatch := []
  rhsBatch := []
  wf := dot_S32768x1000_S1000x1000_S32768x1000_1_0_0_1_n_n_wf
def gather_S32768x1000_S32768x2_S32768_n_01_n_n_01_1_11 : GatherDims S32768x1000 S32768x2 S32768 where
  offsetDims := []
  collapsedSliceDims := [0, 1]
  operandBatchingDims := []
  startIndicesBatchingDims := []
  startIndexMap := [0, 1]
  indexVectorDim := 1
  sliceSizes := ![1, 1]
  wf := gather_S32768x1000_S32768x2_S32768_n_01_n_n_01_1_11_wf
def fn_part2 {F : FTy → Type} [FloatOps F] (main_arg2 : IVec S32768 32) (main_v28 : FVec F S32768 .f32) (main_v32 : IVec S_ 1) (main_v36 : IVec S_ 1) : IVec S_ 1 :=
  let main_v37 : IVec S_ 1 := andi main_v32 main_v36
  let main_c_9 : IVec S_ 32 := constantI S_ 32 0#32
  let main_v38 : IVec S32768 32 := broadcastInDim S32768 ![] bcast_S_S32768 main_c_9
  let main_v39 : IVec S32768 1 := cmpi .sge main_arg2 main_v38
  let main_c_10 : IVec S_ 32 := constantI S_ 32 1000#32
  let main_v40 : IVec S32768 32 := broadcastInDim S32768 ![] bcast_S_S32768 main_c_10
  let main_v41 : IVec S32768 1 := cmpi .slt main_arg2 main_v40
  let main_v42 : IVec S32768 1 := andi main_v39 main_v41
  let main_c_11 : IVec S_ 1 := constantI S_ 1 1#1
  let main_v43 : IVec S_ 1 := (fun x v => Host.reduce IntOp.andi x v reducesTo_S32768_S_d0 h_S_) main_v42 main_c_11
  let main_v44 : IVec S_ 1 := andi main_v37 main_v43
  let main_cst_12 : FVec F S_ .f32 := constant S_ .f32 0x00000000#32
  let main_v45 : FVec F S32768 .f32 := broadcastInDim S32768 ![] bcast_S_S32768 main_cst_12
  let main_v46 : IVec S32768 1 := cmpf .une main_v28 main_v45
  let main_c_13 : IVec S_ 1 := constantI S_ 1 1#1
  let main_v47 : IVec S_ 1 := (fun x v => Host.reduce IntOp.andi x v reducesTo_S32768_S_d0 h_S_) main_v46 main_c_13
  let main_v48 : IVec S_ 1 := andi main_v44 main_v47
  main_v48

def fn_part1 {F : FTy → Type} [FloatOps F] (main_arg0 : FVec F S32768x1000 .f32) (main_arg1 : FVec F S1000x1000 .f32) (main_arg2 : IVec S32768 32) (main_v0 : IVec S32768 32) (main_v14 : FVec F S32768x1000 .f32) (main_v16 : IVec S32768 1) (main_v18 : IVec S32768 32) : IVec S_ 1 :=
  let main_v19 : IVec S32768 32 := select main_v16 main_v18 main_v0
  let main_c_3 : IVec S_ 32 := constantI S_ 32 0#32
  let main_v20 : IVec S32768 32 := broadcastInDim S32768 ![] bcast_S_S32768 main_c_3
  let main_v21 : IVec S32768 1 := cmpi .slt main_arg2 main_v20
  let main_c_4 : IVec S_ 32 := constantI S_ 32 1000#32
  let main_v22 : IVec S32768 32 := broadcastInDim S32768 ![] bcast_S_S32768 main_c_4
  let main_v23 : IVec S32768 32 := addi main_arg2 main_v22
  let main_v24 : IVec S32768 32 := select main_v21 main_v23 main_arg2
  let main_v25 : IVec S32768x1 32 := broadcastInDim S32768x1 ![0] bcast_S32768_S32768x1_0 main_v19
  let main_v26 : IVec S32768x1 32 := broadcastInDim S32768x1 ![0] bcast_S32768_S32768x1_0 main_v24
  let main_v27 : IVec S32768x2 32 := (fun a b => concatenate S32768x2 1 [⟨S32768x1, a⟩, ⟨S32768x1, b⟩] concatenates_S32768x1_S32768x1_S32768x2_d1) main_v25 main_v26
  let main_v28 : FVec F S32768 .f32 := (fun x i => Host.gather gather_S32768x1000_S32768x2_S32768_n_01_n_n_01_1_11 x i) main_v14 main_v27
  let main_v29 : FVec F S32768x1000 .f32 := Host.absf main_arg0
  let main_cst_5 : FVec F S_ .f32 := constant S_ .f32 0x7F800000#32
  let main_v30 : FVec F S32768x1000 .f32 := broadcastInDim S32768x1000 ![] bcast_S_S32768x1000 main_cst_5
  let main_v31 : IVec S32768x1000 1 := cmpf .olt main_v29 main_v30
  let main_c_6 : IVec S_ 1 := constantI S_ 1 1#1
  let main_v32 : IVec S_ 1 := (fun x v => Host.reduce IntOp.andi x v reducesTo_S32768x1000_S_d0_1 h_S_) main_v31 main_c_6
  let main_v33 : FVec F S1000x1000 .f32 := Host.absf main_arg1
  let main_cst_7 : FVec F S_ .f32 := constant S_ .f32 0x7F800000#32
  let main_v34 : FVec F S1000x1000 .f32 := broadcastInDim S1000x1000 ![] bcast_S_S1000x1000 main_cst_7
  let main_v35 : IVec S1000x1000 1 := cmpf .olt main_v33 main_v34
  let main_c_8 : IVec S_ 1 := constantI S_ 1 1#1
  let main_v36 : IVec S_ 1 := (fun x v => Host.reduce IntOp.andi x v reducesTo_S1000x1000_S_d0_1 h_S_) main_v35 main_c_8
  fn_part2 (F := F) main_arg2 main_v28 main_v32 main_v36

def fn {F : FTy → Type} [FloatOps F] (main_arg0 : FVec F S32768x1000 .f32) (main_arg1 : FVec F S1000x1000 .f32) (main_arg2 : IVec S32768 32) : IVec S_ 1 :=
  let main_v0 : IVec S32768 32 := iotaInDim S32768 32 0
  let main_cst : FVec F S_ .f32 := constant S_ .f32 0xFF800000#32
  let main_v1 : FVec F S32768 .f32 := (fun x v => Host.reduce FloatOps.maximumf x v reducesTo_S32768x1000_S32768_d1 h_S_) main_arg0 main_cst
  let main_cst_0 : FVec F S_ .f32 := constant S_ .f32 0xFF800000#32
  let main_v2 : FVec F S32768 .f32 := broadcastInDim S32768 ![] bcast_S_S32768 main_cst_0
  let main_v3 : FVec F S32768 .f32 := maximumf main_v2 main_v1
  let main_v4 : FVec F S32768x1 .f32 := broadcastInDim S32768x1 ![0] bcast_S32768_S32768x1_0 main_v3
  let main_v5 : FVec F S32768x1000 .f32 := broadcastInDim S32768x1000 ![0, 1] bcast_S32768x1_S32768x1000_0_1 main_v4
  let main_v6 : FVec F S32768x1000 .f32 := subf main_arg0 main_v5
  let main_v7 : FVec F S32768x1000 .f32 := Host.exp main_v6
  let main_cst_1 : FVec F S_ .f32 := constant S_ .f32 0x00000000#32
  let main_v8 : FVec F S32768 .f32 := (fun x v => Host.reduceAdd x v reducesTo_S32768x1000_S32768_d1 h_S_) main_v7 main_cst_1
  let main_v9 : FVec F S32768x1 .f32 := broadcastInDim S32768x1 ![0] bcast_S32768_S32768x1_0 main_v8
  let main_v10 : FVec F S32768x1 .f32 := Host.log main_v9
  let main_v11 : FVec F S32768x1000 .f32 := broadcastInDim S32768x1000 ![0, 1] bcast_S32768x1_S32768x1000_0_1 main_v10
  let main_v12 : FVec F S32768x1000 .f32 := subf main_v6 main_v11
  let main_v13 : FVec F S32768x1000 .f32 := Host.exp main_v12
  let main_v14 : FVec F S32768x1000 .f32 := (fun l r => Host.dotGeneral dot_S32768x1000_S1000x1000_S32768x1000_1_0_0_1_n_n none l r) main_v13 main_arg1
  let main_c : IVec S_ 32 := constantI S_ 32 0#32
  let main_v15 : IVec S32768 32 := broadcastInDim S32768 ![] bcast_S_S32768 main_c
  let main_v16 : IVec S32768 1 := cmpi .slt main_v0 main_v15
  let main_c_2 : IVec S_ 32 := constantI S_ 32 32768#32
  let main_v17 : IVec S32768 32 := broadcastInDim S32768 ![] bcast_S_S32768 main_c_2
  let main_v18 : IVec S32768 32 := addi main_v0 main_v17
  fn_part1 (F := F) main_arg0 main_arg1 main_arg2 main_v0 main_v14 main_v16 main_v18
-- ==== Kernel.lean ====
abbrev S32768x1000 : Shape := ⟨2, ![32768, 1000]⟩
abbrev S1000x1000 : Shape := ⟨2, ![1000, 1000]⟩
abbrev S32768 : Shape := ⟨1, ![32768]⟩
abbrev S32768x1 : Shape := ⟨2, ![32768, 1]⟩
abbrev S2x1x1 : Shape := ⟨3, ![2, 1, 1]⟩
abbrev S512x1000 : Shape := ⟨2, ![512, 1000]⟩
abbrev S512x1 : Shape := ⟨2, ![512, 1]⟩
abbrev S1x1x1 : Shape := ⟨3, ![1, 1, 1]⟩
abbrev S1x1 : Shape := ⟨2, ![1, 1]⟩
abbrev S512 : Shape := ⟨1, ![512]⟩
abbrev S1 : Shape := ⟨1, ![1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S32768x1000, .f32⟩
  | .hbm, ⟨1, _⟩ => ⟨S1000x1000, .f32⟩
  | .hbm, ⟨2, _⟩ => ⟨S32768, .i32⟩
  | .hbm, ⟨3, _⟩ => ⟨S32768x1, .i32⟩
  | .hbm, ⟨4, _⟩ => ⟨S1000x1000, .bf16⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S1000x1000, .bf16⟩
  | .local _ .vmem, ⟨3, _⟩ => ⟨S512x1, .i32⟩
  | .local _ .vmem, ⟨4, _⟩ => ⟨S512x1, .i32⟩
  | .local _ .vmem, ⟨5, _⟩ => ⟨S1x1x1, .f32⟩
  | .local _ .vmem, ⟨6, _⟩ => ⟨S1x1x1, .f32⟩
  | .local _ .vmem, ⟨7, _⟩ => ⟨S1x1, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v55 : BitVec 1 := Scalar.cmpi .eq arg1 c31_i32
  let v56 : BitVec 32 := Scalar.extui v55
  let c0_i32_23 : BitVec 32 := 0#32
  let v57 : BitVec 1 := Scalar.cmpi .ne v56 c0_i32_23
  v57

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1000x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32768_S32768x1 : S32768.ShapeCasts S32768x1
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  broadcasts_S512x1_S512x1000 : S512x1.Broadcasts S512x1000
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  reduces_S512x1_S1 : S512x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  dot_S512x1000_S1000x1000_S512x1000_1_0_0_1_n_n_wf : DotDims.WF S512x1000 S1000x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S32768x1000.size a
  hwx0_0 : ∀ i : grid0.Coords, EltTy.bits .f32 = 32 ∨ (Rect.block (s := S32768x1000) S512x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1000.size a ≤ S1000x1000.size a
  hwx0_1 : ∀ i : grid0.Coords, EltTy.bits .bf16 = 32 ∨ (Rect.block (s := S1000x1000) S1000x1000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .i32 = 32 ∨ (Rect.block (s := S32768x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S512x1000_S1000x1000_S512x1000_1_0_0_1_n_n : DotDims S512x1000 S1000x1000 S512x1000 where
  lhsContracting := [1]
  rhsContracting := [0]
  lhsNonContracting := [0]
  rhsNonContracting := [1]
  lhsBatch := []
  rhsBatch := []
  wf := dot_S512x1000_S1000x1000_S512x1000_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1000x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1000 : Shape := ⟨2, ![32768, 1000]⟩
abbrev S1000x1000 : Shape := ⟨2, ![1000, 1000]⟩
abbrev S32768 : Shape := ⟨1, ![32768]⟩
abbrev S_ : Shape := ⟨0, ![]⟩
abbrev S32768x1 : Shape := ⟨2, ![32768, 1]⟩
abbrev S32768x2 : Shape := ⟨2, ![32768, 2]⟩

abbrev nBuf : Space → Nat
  | .hbm => 82
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S1000x1000, .f32⟩
  | .hbm, ⟨2, _⟩ => ⟨S32768, .i32⟩
  | .hbm, ⟨3, _⟩ => ⟨S32768, .i32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x1000, .f32⟩
  | .hbm, ⟨11, _⟩ => ⟨S32768x1000, .f32⟩
  | .hbm, ⟨12, _⟩ => ⟨S32768x1000, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x1, .f32⟩
  | .hbm, ⟨17, _⟩ => ⟨S32768x1000, .f32⟩
  | .hbm, ⟨18, _⟩ => ⟨S32768x1000, .f32⟩
  | .hbm, ⟨19, _⟩ => ⟨S32768x1000, .f32⟩
  | .hbm, ⟨20, _⟩ => ⟨S_, .i32⟩
  | .hbm, ⟨21, _⟩ => ⟨S32768, .i32⟩
  | .hbm, ⟨22, _⟩ => ⟨S32768, .i1⟩
  | .hbm, ⟨23, _⟩ => ⟨S_, .i32⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S_, .i32⟩
  | .hbm, ⟨28, _⟩ => ⟨S32768, .i32⟩
  | .hbm, ⟨29, _⟩ => ⟨S32768, .i1⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768, .i32⟩
  | .hbm, ⟨34, _⟩ => ⟨S32768x1, .i32⟩
  | .hbm, ⟨35, _⟩ => ⟨S32768x1, .i32⟩
  | .hbm, ⟨36, _⟩ => ⟨S32768x2, .i32⟩
  | .hbm, ⟨37, _⟩ => ⟨S32768, .f32⟩
  | .hbm, ⟨38, _⟩ => ⟨S32768x1000, .f32⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S_, .i32⟩
  | .hbm, ⟨47, _⟩ => ⟨S32768, .i32⟩
  | .hbm, ⟨48, _⟩ => ⟨S32768, .i1⟩
  | .hbm, ⟨49, _⟩ => ⟨S_, .i32⟩
  | .hbm, ⟨50, _⟩ => ⟨S32768, .i32⟩
  | .hbm, ⟨51, _⟩ => ⟨S32768, .i32⟩
  | .hbm, ⟨52, _⟩ => ⟨S32768, .i32⟩
  | .hbm, ⟨53, _⟩ => ⟨S32768x1, .i32⟩
  | .hbm, ⟨54, _⟩ => ⟨S32768x1, .i32⟩
  | .hbm, ⟨55, _⟩ => ⟨S32768x2, .i32⟩
  | .hbm, ⟨56, _⟩ => ⟨S32768, .f32⟩
  | .hbm, ⟨57, _⟩ => ⟨S32768, .f32⟩
  | .hbm, ⟨58, _⟩ => ⟨S_, .i32⟩
  | .hbm, ⟨59, _⟩ => ⟨S32768, .i32⟩
  | .hbm, ⟨60, _⟩ => ⟨S32768, .i1⟩
  | .hbm, ⟨61, _⟩ => ⟨S_, .i32⟩
  | .hbm, ⟨62, _⟩ => ⟨S32768, .i32⟩
  | .hbm, ⟨63, _⟩ => ⟨S32768, .i32⟩
  | .hbm, ⟨64, _⟩ => ⟨S32768, .i32⟩
  | .hbm, ⟨65, _⟩ => ⟨S_, .i32⟩
  | .hbm, ⟨66, _⟩ => ⟨S32768, .i32⟩
  | .hbm, ⟨67, _⟩ => ⟨S32768, .i1⟩
  | .hbm, ⟨68, _⟩ => ⟨S_, .i32⟩
  | .hbm, ⟨69, _⟩ => ⟨S32768, .i32⟩
  | .hbm, ⟨70, _⟩ => ⟨S32768, .i32⟩
  | .hbm, ⟨71, _⟩ => ⟨S32768, .i32⟩
  | .hbm, ⟨72, _⟩ => ⟨S32768x1, .i32⟩
  | .hbm, ⟨73, _⟩ => ⟨S32768x1, .i32⟩
  | .hbm, ⟨74, _⟩ => ⟨S32768x2, .i32⟩
  | .hbm, ⟨75, _⟩ => ⟨S32768, .f32⟩
  | .hbm, ⟨76, _⟩ => ⟨S32768, .f32⟩
  | .hbm, ⟨77, _⟩ => ⟨S32768, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst : Ref sig .tc := ⟨.hbm, 78, rfl⟩
abbrev main_v49 : Ref sig .tc := ⟨.hbm, 79, rfl⟩
abbrev main_cst_11 : Ref sig .tc := ⟨.hbm, 80, rfl⟩
abbrev main_v50 : Ref sig .tc := ⟨.hbm, 81, rfl⟩

abbrev nD : Nat := 1
abbrev τ : Topo := Topo.v7x

variable {F : FTy → Type} [FloatOps F]

class Facts₀ : Prop where
  reducesTo_S32768x1000_S32768_d1 : S32768x1000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  concatenates_S32768x1_S32768x1_S32768x2_d1 : Shape.Concatenates [S32768x1, S32768x1] S32768x2 1
  reducesTo_S32768_S_d0 : S32768.ReducesTo [0] S_
  gather_S32768x1000_S32768x2_S32768_n_01_n_n_01_1_11_wf : GatherDims.WF S32768x1000 S32768x2 S32768 [] [0, 1] [] [0, 1] [] 1 ![1, 1]
  dot_S32768x1000_S1000x1000_S32768x1000_1_0_0_1_n_n_wf : DotDims.WF S32768x1000 S1000x1000 S32768x1000 [1] [0] [0] [1] [] []

variable [Facts₀]

def gather_S32768x1000_S32768x2_S32768_n_01_n_n_01_1_11 : GatherDims S32768x1000 S32768x2 S32768 where
  offsetDims := []
  collapsedSliceDims := [0, 1]
  operandBatchingDims := []
  startIndicesBatchingDims := []
  startIndexMap := [0, 1]
  indexVectorDim := 1
  sliceSizes := ![1, 1]
  wf := gather_S32768x1000_S32768x2_S32768_n_01_n_n_01_1_11_wf
def dot_S32768x1000_S1000x1000_S32768x1000_1_0_0_1_n_n : DotDims S32768x1000 S1000x1000 S32768x1000 where
  lhsContracting := [1]
  rhsContracting := [0]
  lhsNonContracting := [0]
  rhsNonContracting := [1]
  lhsBatch := []
  rhsBatch := []
  wf := dot_S32768x1000_S1000x1000_S32768x1000_1_0_0_1_n_n_wf

class Facts : Prop extends Facts₀ where

variable [Facts]
-- ==== Proof.KernelPieces.lean ====
/-
  What one run of the kernel body leaves behind, as values of its loads.

  The body keeps a 1 × 1 accumulator. At the first tile of a half (case A) it stores zero into it, then adds the
  tile's partial sum; at the other tiles (cases B and C) it adds the tile's partial sum to what the tile before
  left; at the last tile of a half (case C) it also copies the accumulator into the 1 × 1 × 1 output block. So the
  accumulator after a run is the tile payload over the accumulator before it (zero in case A), and the output block
  of case C is that value reshaped.
-/
import proofs.«425515_j266287973106_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The accumulator after a tile: the accumulator before it plus the tile's partial sum, as the body computes it from
    the tile's block of logits `x0`, the transition matrix `x1` and the tile's labels `x2`. -/
def tilePay (x0 : Vec F S512x1000 .f32) (x1 : Vec F S1000x1000 .bf16) (x2 : Vec F S512x1 .i32) (acc : Vec F S1x1 .f32) :
    Vec F S1x1 .f32 :=
  k0_pay1 (k0_pay6 x0) (k0_pay9 x2) (k0_pay10 x0 x1 x2) (k0_pay11 x0 x2) (k0_pay12 x0 x2) (k0_pay13 x0 x1 x2) (k0_pay14 (F := F)) acc

/-- The zero offsets of the 1 × 1 accumulator, as the constant function. -/
theorem hz2 : (![0, 0] : Fin 2 → Nat) = fun _ => 0 := funext fun a => by fin_cases a <;> rfl

/-- The zero offsets of the 1 × 1 × 1 output block, as the constant function. -/
theorem hz3 : (![0, 0, 0] : Fin 3 → Nat) = fun _ => 0 := funext fun a => by fin_cases a <;> rfl

/-- Case A (first tile of a half): the accumulator is reset to zero, then takes the tile's partial sum. -/
theorem sout_A (c : Dev nD) (i : grid0.Coords) (arg2 : Memref sig .tc .vmem S512x1000 .f32) (harg2 : arg2.IsWhole) (arg3 : Memref sig .tc .vmem S1000x1000 .bf16) (harg3 : arg3.IsWhole) (arg4 : Memref sig .tc .vmem S512x1 .i32) (harg4 : arg4.IsWhole) (arg5 : Memref sig .tc .vmem S1x1x1 .f32) (harg5 : arg5.IsWhole) (arg6 : Memref sig .tc .vmem S1x1 .f32) (harg6 : arg6.IsWhole) (hc0 : cond0_0 i) (hc1 : ¬cond0_1 i)
    (x0 : Vec F S512x1000 .f32) (x1 : Vec F S1000x1000 .bf16) (x2 : Vec F S512x1 .i32) :
    sout0_A_0 c i arg2 harg2 arg3 harg3 arg4 harg4 arg5 harg5 arg6 harg6 hc0 hc1 x0 x1 x2 = tilePay x0 x1 x2 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2, View.readCov_unit_zero (S := S1x1) _ hz2]
  unfold tilePay
  simp only [View.readAt_eq_ld, harg2.read_unread, harg3.read_unread, harg4.read_unread,
    View.ld_unit_zero (S := S512x1000) hz2, View.ld_unit_zero (S := S1000x1000) hz2, View.ld_unit_zero (S := S512x1) hz2]

/-- Case B (an inner tile): the accumulator the tile before left takes the tile's partial sum. -/
theorem sout_B (c : Dev nD) (i : grid0.Coords) (arg2 : Memref sig .tc .vmem S512x1000 .f32) (harg2 : arg2.IsWhole) (arg3 : Memref sig .tc .vmem S1000x1000 .bf16) (harg3 : arg3.IsWhole) (arg4 : Memref sig .tc .vmem S512x1 .i32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : ¬cond0_1 i)
    (x0 : Vec F S512x1000 .f32) (x1 : Vec F S1000x1000 .bf16) (x2 : Vec F S512x1 .i32) (xs0 : Vec F S1x1 .f32) :
    sout0_B_0 c i arg2 harg2 arg3 harg3 arg4 harg4 arg5 harg5 arg6 harg6 hc0 hc1 x0 x1 x2 xs0 = tilePay x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1x1) hz2]
  unfold tilePay
  simp only [View.readAt_eq_ld, harg2.read_unread, harg3.read_unread, harg4.read_unread, harg6.read_unread,
    View.ld_unit_zero (S := S512x1000) hz2, View.ld_unit_zero (S := S1000x1000) hz2, View.ld_unit_zero (S := S512x1) hz2,
    View.ld_unit_zero (S := S1x1) hz2]

/-- Case C (last tile of a half): the same for the accumulator … -/
theorem sout_C (c : Dev nD) (i : grid0.Coords) (arg2 : Memref sig .tc .vmem S512x1000 .f32) (harg2 : arg2.IsWhole) (arg3 : Memref sig .tc .vmem S1000x1000 .bf16) (harg3 : arg3.IsWhole) (arg4 : Memref sig .tc .vmem S512x1 .i32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i)
    (x0 : Vec F S512x1000 .f32) (x1 : Vec F S1000x1000 .bf16) (x2 : Vec F S512x1 .i32) (xs0 : Vec F S1x1 .f32) :
    sout0_C_0 c i arg2 harg2 arg3 harg3 arg4 harg4 arg5 harg5 arg6 harg6 hc0 hc1 x0 x1 x2 xs0 = tilePay x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1x1) hz2]
  unfold tilePay
  simp only [View.readAt_eq_ld, harg2.read_unread, harg3.read_unread, harg4.read_unread, harg6.read_unread,
    View.ld_unit_zero (S := S512x1000) hz2, View.ld_unit_zero (S := S1000x1000) hz2, View.ld_unit_zero (S := S512x1) hz2,
    View.ld_unit_zero (S := S1x1) hz2]

/-- … and the output block is the accumulator's new value, reshaped to 1 × 1 × 1. -/
theorem out_C (c : Dev nD) (i : grid0.Coords) (arg2 : Memref sig .tc .vmem S512x1000 .f32) (harg2 : arg2.IsWhole) (arg3 : Memref sig .tc .vmem S1000x1000 .bf16) (harg3 : arg3.IsWhole) (arg4 : Memref sig .tc .vmem S512x1 .i32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i)
    (x0 : Vec F S512x1000 .f32) (x1 : Vec F S1000x1000 .bf16) (x2 : Vec F S512x1 .i32) (xs0 : Vec F S1x1 .f32) :
    out0_C_3 c i arg2 harg2 arg3 harg3 arg4 harg4 arg5 harg5 arg6 harg6 hc0 hc1 x0 x1 x2 xs0 = k0_pay2 (tilePay x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x1x1) hz3]
  unfold tilePay
  simp only [View.readAt_eq_ld, harg2.read_unread, harg3.read_unread, harg4.read_unread, harg6.read_unread,
    View.ld_unit_zero (S := S512x1000) hz2, View.ld_unit_zero (S := S1000x1000) hz2, View.ld_unit_zero (S := S512x1) hz2,
    View.ld_unit_zero (S := S1x1) hz2, View.readCov_unit_zero (S := S1x1) _ hz2]

end Cert.KernelIdeal.Pieces

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelBlocks.lean ====
/-
  The blocks the pipeline stages for the kernel body, read at an index, at the extended reals.

  Grid point t (of 64) is tile t of the 64 tiles of 512 rows: its block of logits is rows 512·t … 512·t + 511 of
  the logits, its block of labels the same rows of the labels seen as a column, and the transition matrix is staged
  whole at every point — the matrix the program stores in half precision, which over the extended reals is the matrix
  itself.
-/
import proofs.«425515_j266287973106_3_alg».proof.Proof.Gen.KernelIdeal.Frame
import Idealize.ShloMosaic.Lib.ValueIdx
import Idealize.ShloMosaic.Lib.Pipeline.Value
import Idealize.ShloMosaic.Lib.StableHlo.Run
import proofs.«425515_j266287973106_3_alg».proof.Proof.LibColumn

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- Row `q` of tile `n` among the 32768 rows. -/
def tileRow (n : ℕ) (hn : n < 64) (q : Fin 512) : Fin 32768 := ⟨n * 512 + q.val, by have := q.isLt; omega⟩

/-- The logits as launched. -/
abbrev arr0 (c : Dev nD) : Vec Ideal S32768x1000 .f32 := m ((c : Thread nD τ).loc main_arg0)
/-- The transition matrix as launched. -/
abbrev arr1 (c : Dev nD) : Vec Ideal S1000x1000 .f32 := m ((c : Thread nD τ).loc main_arg1)
/-- The labels as launched. -/
abbrev arr2 (c : Dev nD) : Vec Ideal S32768 .i32 := m ((c : Thread nD τ).loc main_arg2)

/-- The block of logits staged at point `t`. -/
abbrev blk0 (c : Dev nD) (t : Fin cfg0.N) : Vec Ideal S512x1000 .f32 := iblk m c 0 t
/-- The transition matrix staged at point `t`. -/
abbrev blk1 (c : Dev nD) (t : Fin cfg0.N) : Vec Ideal S1000x1000 .bf16 := iblk m c 1 t
/-- The block of labels staged at point `t`. -/
abbrev blk2 (c : Dev nD) (t : Fin cfg0.N) : Vec Ideal S512x1 .i32 := iblk m c 2 t

/-- The block index of window 0 at point `t`: tile `t` on the rows, the whole width. -/
theorem idx0_0 : ∀ t : Fin cfg0.N, win0_0.index t (0 : Fin 2) = t.val :=
  (by decide +kernel : ∀ t : Fin grid0.N, _)
theorem idx0_1 : ∀ t : Fin cfg0.N, win0_0.index t (1 : Fin 2) = 0 :=
  (by decide +kernel : ∀ t : Fin grid0.N, _)
/-- Window 1 stages its whole array at every point. -/
theorem idx1_0 : ∀ t : Fin cfg0.N, win0_1.index t (0 : Fin 2) = 0 :=
  (by decide +kernel : ∀ t : Fin grid0.N, _)
theorem idx1_1 : ∀ t : Fin cfg0.N, win0_1.index t (1 : Fin 2) = 0 :=
  (by decide +kernel : ∀ t : Fin grid0.N, _)
/-- The block index of window 2 at point `t`: tile `t` on the rows, the one column. -/
theorem idx2_0 : ∀ t : Fin cfg0.N, win0_2.index t (0 : Fin 2) = t.val :=
  (by decide +kernel : ∀ t : Fin grid0.N, _)
theorem idx2_1 : ∀ t : Fin cfg0.N, win0_2.index t (1 : Fin 2) = 0 :=
  (by decide +kernel : ∀ t : Fin grid0.N, _)

/-- The half-precision matrix the region finds is the launched matrix truncated. -/
theorem V_main_v1 (c : Dev nD) :
    @Eq (FVec Ideal S1000x1000 .bf16) (V m c main_v1) (truncf .bf16 (arr1 m c) bitsLt_bf16_f32) := by
  dsimp only [Gen.V, Gen.V0]
  simp only [Gen.hostOps0, List.flatten_cons, List.flatten_nil, List.append_nil, List.cons_append, List.nil_append]
  after_results

/-- The column of labels the region finds is the launched labels seen as a column. -/
theorem V_main_v0 (c : Dev nD) :
    (V m c main_v0 : Vec Ideal S32768x1 .i32) = shapeCast S32768x1 (arr2 m c) shapeCasts_S32768_S32768x1 := by
  dsimp only [Gen.V, Gen.V0]
  simp only [Gen.hostOps0, List.flatten_cons, List.flatten_nil, List.append_nil, List.cons_append, List.nil_append]
  after_results
  rfl

theorem blk0_apply (c : Dev nD) (t : Fin cfg0.N) (ht : t.val < 64) (q : Fin 512) (k : Fin 1000) :
    blk0 m c t (ix2 q k) = arr0 m c (ix2 (tileRow t.val ht q) k) := by
  show V m c main_arg0 (((cfg0.win 0).blk t).view.emb (ix2 q k))
    = m ((c : Thread nD τ).loc main_arg0) (ix2 (tileRow t.val ht q) k)
  rw [V_main_arg0]
  refine congrArg _ (funext fun a => Fin.ext ?_)
  match a with
  | ⟨0, _⟩ =>
    show win0_0.index t (0 : Fin 2) * 512 + 1 * q.val = t.val * 512 + q.val
    rw [idx0_0]; omega
  | ⟨1, _⟩ =>
    show win0_0.index t (1 : Fin 2) * 1000 + 1 * k.val = k.val
    rw [idx0_1]; omega

theorem blk1_apply (c : Dev nD) (t : Fin cfg0.N) (k l : Fin 1000) :
    blk1 m c t (ix2 k l) = arr1 m c (ix2 k l) := by
  show V m c main_v1 (((cfg0.win 1).blk t).view.emb (ix2 k l))
    = m ((c : Thread nD τ).loc main_arg1) (ix2 k l)
  rw [V_main_v1, truncf_apply]
  refine congrArg _ (funext fun a => Fin.ext ?_)
  match a with
  | ⟨0, _⟩ =>
    show win0_1.index t (0 : Fin 2) * 1000 + 1 * k.val = k.val
    rw [idx1_0]; omega
  | ⟨1, _⟩ =>
    show win0_1.index t (1 : Fin 2) * 1000 + 1 * l.val = l.val
    rw [idx1_1]; omega

theorem blk2_apply (c : Dev nD) (t : Fin cfg0.N) (ht : t.val < 64) (q : Fin 512) :
    blk2 m c t (ix2 q (0 : Fin 1)) = arr2 m c (ix1 (tileRow t.val ht q)) := by
  show V m c main_v0 (((cfg0.win 2).blk t).view.emb (ix2 q (0 : Fin 1)))
    = m ((c : Thread nD τ).loc main_arg2) (ix1 (tileRow t.val ht q))
  rw [V_main_v0]
  have e : ((cfg0.win 2).blk t).view.emb (ix2 q (0 : Fin 1)) = ix2 (tileRow t.val ht q) (0 : Fin 1) := by
    refine funext fun a => Fin.ext ?_
    match a with
    | ⟨0, _⟩ =>
      show win0_2.index t (0 : Fin 2) * 512 + 1 * q.val = t.val * 512 + q.val
      rw [idx2_0]; omega
    | ⟨1, _⟩ =>
      show win0_2.index t (1 : Fin 2) * 1 + 1 * 0 = 0
      rw [idx2_1]
  rw [e]
  exact Cert.Lib.Column.shapeCast_a_a1_apply _ _ _ _

end Cert.KernelIdeal.Blocks

end
-- ==== Proof.RowDefs.lean ====
/-
  One sample's loss as a function of its row of 1000 logits, one column of the transition matrix and its label, over
  the extended reals, in the two forms the two programs compute; and the numbering of the 32768 rows by half, tile
  and row within the tile.

  With m the row's maximum, s_k = x_k − m the shifted logits, S = Σ_k exp s_k and P = Σ_k exp s_k · t_k, one form is
  (exp s_y / P) · (log S − s_y); the other first normalises, l_k = s_k − log S, and is
  (exp l_y / Σ_k exp l_k · t_k) · (−l_y).
-/
import Mathlib.Data.EReal.Basic
import Mathlib.Data.EReal.Operations
import Mathlib.Algebra.BigOperators.Group.Finset.Basic
import Idealize.ShloMosaic.PureOps.Ideal

noncomputable section

namespace Cert.Noise

open Idealize.ShloMosaic

/-- A row of 1000 class scores (also: a column of the 1000 × 1000 transition matrix). -/
abbrev Row := Fin 1000 → EReal

/-- The row's maximum. -/
def rmax (r : Row) : EReal := Finset.univ.sup r
/-- The row shifted by its maximum. -/
def sh (r : Row) (k : Fin 1000) : EReal := r k - rmax r
/-- The sum of the exponentials of the shifted row. -/
def sumexp (r : Row) : EReal := ∑ k, Ideal.exp (sh r k)
/-- The exponentials of the shifted row against a column of the transition matrix. -/
def wsum (r col : Row) : EReal := ∑ k, Ideal.exp (sh r k) * col k
/-- The sample's loss with the normalisation cancelled: (exp s_y / P) · (log S − s_y). -/
def lossK (r col : Row) (y : Fin 1000) : EReal :=
  Ideal.div (Ideal.exp (sh r y)) (wsum r col) * (Ideal.log (sumexp r) - sh r y)
/-- The logarithm of the row's softmax. -/
def lsm (r : Row) (k : Fin 1000) : EReal := sh r k - Ideal.log (sumexp r)
/-- The row's softmax against a column of the transition matrix. -/
def wsumR (r col : Row) : EReal := ∑ k, Ideal.exp (lsm r k) * col k
/-- The sample's loss through the normalised softmax: (exp l_y / Σ_k exp l_k · t_k) · (−l_y). -/
def lossR (r col : Row) (y : Fin 1000) : EReal :=
  Ideal.div (Ideal.exp (lsm r y)) (wsumR r col) * (-(lsm r y))

/-- Row q of tile j of half c, among the 32768 rows. -/
def rowOf (c : Fin 2) (j : Fin 32) (q : Fin 512) : Fin 32768 :=
  ⟨(c.val * 32 + j.val) * 512 + q.val, by have := c.isLt; have := j.isLt; have := q.isLt; omega⟩

end Cert.Noise

end
-- ==== Proof.KernelRowSoft.lean ====
/-
  The first part of the kernel body's arithmetic on a tile of 512 rows, read at an entry over the extended reals: the
  rows shifted by their maxima, their exponentials, and the logarithm of each row's sum of exponentials.
-/
import proofs.«425515_j266287973106_3_alg».proof.Proof.Gen.KernelIdeal.Skeleton
import proofs.«425515_j266287973106_3_alg».proof.Proof.RowDefs
import proofs.«425515_j266287973106_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RowVal

open Cert.KernelIdeal Cert.KernelIdeal.Gen Cert.Noise
open Idealize.ShloMosaic Idealize.ShloMosaic.TcCoe Idealize.ShloMosaic.ValueIdx

/-- Row `q` of a tile's block of logits. -/
def brow (x0 : Vec Ideal S512x1000 .f32) (q : Fin 512) : Row := fun k => x0 (ix2 q k)
/-- Column `y` of the staged transition matrix. -/
def bcol (x1 : Vec Ideal S1000x1000 .bf16) (y : Fin 1000) : Row := fun k => x1 (ix2 k y)

/-! ### A row's maximum and a row's sum of a [512 × 1000] tile, and a per-row vector laid back along the rows -/

/-- The pattern of −∞ denotes the bottom element of the extended reals. -/
theorem ofBits_negInf : Ideal.ofBits .f32 0xFF800000#32 = (⊥ : EReal) := by
  simp [Ideal.ofBits, Ideal.ieee]

/-- A fold of `max` from the bottom element is the supremum. -/
theorem fold_max_bot_eq_sup {ι : Type} (s : Finset ι) (f : ι → EReal) : s.fold max ⊥ f = s.sup f := by
  induction s using Finset.cons_induction with
  | empty => rw [Finset.fold_empty, Finset.sup_empty]
  | cons a s ha ih => rw [Finset.fold_cons, Finset.sup_cons, ih]

/-- Row `q` with the column `k` inserted on axis 1 is the entry (q, k). -/
theorem lift_tileRow (h : S512x1000.Reduces [1] S512) (q : Fin 512) (k : Fin 1000) :
    h.lift (ix1 q) k = ix2 q k := by
  funext b
  match b with
  | ⟨0, _⟩ => exact Fin.ext rfl
  | ⟨1, _⟩ => exact Fin.ext rfl

/-- The maximum over axis 1 from the −∞ pattern, at row `q`: the supremum of the row's 1000 entries. -/
theorem tileRowMax (v : S512x1000.Idx → EReal) (h : S512x1000.Reduces [1] S512) (hφ : FKind.Formats .f32)
    (hacc : (0xFF800000#32 : BitVec FTy.f32.bits) = FKind.maximumf.neutral .f32 hφ) (q : Fin 512) :
    multiReduction (F := Ideal) (φ := .f32) .maximumf [1] S512 v 0xFF800000#32 h hφ hacc (ix1 q)
      = Finset.univ.sup (fun k : Fin 1000 => v (ix2 q k)) := by
  refine (Ideal.multiReduction_maximumf_single (φ := .f32) v 0xFF800000#32 h hφ hacc (ix1 q)).trans ?_
  rw [Ideal.ofBits_def, ofBits_negInf, fold_max_bot_eq_sup]
  exact congrArg (Finset.sup Finset.univ) (funext fun k => congrArg v (lift_tileRow h q k))

/-- The sum over axis 1 from the zero pattern, at row `q`: the sum of the row's 1000 entries. -/
theorem tileRowSum (v : S512x1000.Idx → EReal) (h : S512x1000.Reduces [1] S512) (hφ : FKind.Formats .f32)
    (hacc : (0x00000000#32 : BitVec FTy.f32.bits) = FKind.add.neutral .f32 hφ) (q : Fin 512) :
    multiReduction (F := Ideal) (φ := .f32) .add [1] S512 v 0x00000000#32 h hφ hacc (ix1 q)
      = ∑ k : Fin 1000, v (ix2 q k) := by
  refine (Ideal.multiReduction_add_single (φ := .f32) v 0x00000000#32 h hφ hacc (ix1 q)).trans ?_
  exact Finset.sum_congr rfl fun k _ => congrArg v (lift_tileRow h q k)

/-- The row maxima, kept as a column and laid back along the rows, at an entry: the maximum of the entry's row. -/
theorem tileMaxCol (x0 : Vec Ideal S512x1000 .f32) (q : Fin 512) (k : Fin 1000) :
    broadcastTo S512x1000
        (shapeCast S512x1
          (multiReduction (F := Ideal) (φ := .f32) .maximumf [1] S512 x0 0xFF800000#32 reduces_S512x1000_S512 (.inl rfl) rfl)
          shapeCasts_S512_S512x1)
        broadcasts_S512x1_S512x1000 (ix2 q k)
      = rmax (brow x0 q) := by
  refine (Cert.Lib.Column.broadcastTo_a1_ab_apply _ broadcasts_S512x1_S512x1000 q k).trans ?_
  refine (Cert.Lib.Column.shapeCast_a_a1_apply _ shapeCasts_S512_S512x1 q (0 : Fin 1)).trans ?_
  exact tileRowMax x0 reduces_S512x1000_S512 (.inl rfl) rfl q

/-- The shifted logits. -/
theorem pay4_apply (x0 : Vec Ideal S512x1000 .f32) (q : Fin 512) (k : Fin 1000) :
    k0_pay4 (F := Ideal) x0 (ix2 q k) = sh (brow x0 q) k := by
  show x0 (ix2 q k) - _ = x0 (ix2 q k) - rmax (brow x0 q)
  exact congrArg (fun t => x0 (ix2 q k) - t) (tileMaxCol x0 q k)

/-- Their exponentials. -/
theorem pay5_apply (x0 : Vec Ideal S512x1000 .f32) (q : Fin 512) (k : Fin 1000) :
    k0_pay5 (F := Ideal) x0 (ix2 q k) = Ideal.exp (sh (brow x0 q) k) := by
  show Ideal.exp (k0_pay4 (F := Ideal) x0 (ix2 q k)) = _
  rw [pay4_apply]

/-- The logarithm of each row's sum of exponentials, kept as a column. -/
theorem pay6_apply (x0 : Vec Ideal S512x1000 .f32) (q : Fin 512) :
    k0_pay6 (F := Ideal) x0 (ix2 q (0 : Fin 1)) = Ideal.log (sumexp (brow x0 q)) := by
  show Ideal.log (shapeCast S512x1
      (multiReduction (F := Ideal) (φ := .f32) .add [1] S512 (k0_pay5 (F := Ideal) x0) 0x00000000#32
        reduces_S512x1000_S512 (.inl rfl) rfl)
      shapeCasts_S512_S512x1 (ix2 q (0 : Fin 1))) = _
  refine congrArg Ideal.log ?_
  refine (Cert.Lib.Column.shapeCast_a_a1_apply _ shapeCasts_S512_S512x1 q (0 : Fin 1)).trans ?_
  refine (tileRowSum (k0_pay5 (F := Ideal) x0) reduces_S512x1000_S512 (.inl rfl) rfl q).trans ?_
  exact Finset.sum_congr rfl fun k _ => pay5_apply x0 q k

end Cert.KernelIdeal.RowVal

end
-- ==== Proof.KernelRowPick.lean ====
/-
  The second part of the kernel body's arithmetic on a tile, read at a row over the extended reals: the comparison of a
  column counter with the row's label marks exactly the label's column, so summing the marked entries of a row picks
  its entry at the label — of the product of the exponentials with the transition matrix, and of the shifted logits;
  and the two guards: the label-in-range mask is set, the product-is-zero mask is clear.
-/
import proofs.«425515_j266287973106_3_alg».proof.Proof.Gen.KernelIdeal.Skeleton
import proofs.«425515_j266287973106_3_alg».proof.Proof.RowDefs
import proofs.«425515_j266287973106_3_alg».proof.Proof.LibColumn
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import proofs.«425515_j266287973106_3_alg».proof.Proof.KernelRowSoft

noncomputable section

namespace Cert.KernelIdeal.RowVal

open Cert.KernelIdeal Cert.KernelIdeal.Gen Cert.Noise
open Idealize.ShloMosaic Idealize.ShloMosaic.TcCoe Idealize.ShloMosaic.ValueIdx

/-- The label of row `q` of the tile, as a class. -/
def lab (x2 : Vec Ideal S512x1 .i32) (hr : ∀ q : Fin 512, (x2 (ix2 q (0 : Fin 1))).toNat < 1000) (q : Fin 512) : Fin 1000 :=
  ⟨(x2 (ix2 q (0 : Fin 1))).toNat, hr q⟩

/-- The word of a column counter below 1000 is a word of value below 1000 exactly when the values agree: neither wraps. -/
theorem ofNat_eq_iff (k : Fin 1000) (w : BitVec 32) (hw : w.toNat < 1000) :
    BitVec.ofNat 32 k.val = w ↔ k.val = w.toNat := by
  have hk := k.isLt
  constructor
  · intro h
    rw [← h, BitVec.toNat_ofNat]
    exact (Nat.mod_eq_of_lt (by omega)).symm
  · intro h
    apply BitVec.eq_of_toNat_eq
    rw [BitVec.toNat_ofNat, h]
    exact Nat.mod_eq_of_lt (by omega)

/-- The label column, recast to its own shape, is itself. -/
theorem pay7_eq (x2 : Vec Ideal S512x1 .i32) : k0_pay7 (F := Ideal) x2 = x2 :=
  shapeCast_self x2 shapeCasts_S512x1_S512x1

/-- The mask's entry: the comparison of the column counter's word with the row's label word. -/
theorem pay8_read (x2 : Vec Ideal S512x1 .i32) (q : Fin 512) (k : Fin 1000) :
    k0_pay8 (F := Ideal) x2 (ix2 q k) = IntOp.cmpi .eq (BitVec.ofNat 32 k.val) (x2 (ix2 q (0 : Fin 1))) := by
  show IntOp.cmpi .eq (iota .tc S512x1000 32 [1] iota_S512x1000_d1_w32 (ix2 q k))
      (broadcastTo S512x1000 (k0_pay7 (F := Ideal) x2) broadcasts_S512x1_S512x1000 (ix2 q k)) = _
  rw [iota_single_apply, Cert.Lib.Column.broadcastTo_a1_ab_apply, pay7_eq]

/-- The column-equals-label mask, at an entry. -/
theorem pay8_apply (x2 : Vec Ideal S512x1 .i32) (hr : ∀ q : Fin 512, (x2 (ix2 q (0 : Fin 1))).toNat < 1000)
    (q : Fin 512) (k : Fin 1000) :
    k0_pay8 (F := Ideal) x2 (ix2 q k) = if k = lab x2 hr q then 1#1 else 0#1 := by
  rw [pay8_read]
  by_cases h : k = lab x2 hr q
  · rw [if_pos h]
    exact StableHlo.Predicate.cmpi_eq_iff.2 ((ofNat_eq_iff k _ (hr q)).2 (congrArg Fin.val h))
  · rw [if_neg h]
    exact eq_zero_of_ne_one fun h1 =>
      h (Fin.ext ((ofNat_eq_iff k _ (hr q)).1 (StableHlo.Predicate.cmpi_eq_iff.1 h1)))

/-- The label-in-range mask is set. -/
theorem pay9_apply (x2 : Vec Ideal S512x1 .i32) (hr : ∀ q : Fin 512, (x2 (ix2 q (0 : Fin 1))).toNat < 1000) (q : Fin 512) :
    k0_pay9 (F := Ideal) x2 (ix2 q (0 : Fin 1)) = 1#1 := by
  have hw := hr q
  show IntOp.andi (IntOp.cmpi .sge (k0_pay7 (F := Ideal) x2 (ix2 q (0 : Fin 1))) 0#32)
      (IntOp.cmpi .slt (k0_pay7 (F := Ideal) x2 (ix2 q (0 : Fin 1))) 1000#32) = 1#1
  rw [pay7_eq]
  have h1 : IntOp.cmpi .sge (x2 (ix2 q (0 : Fin 1))) 0#32 = 1#1 :=
    (StableHlo.Predicate.sge_iff_toNat (by omega) (by decide)).2 (Nat.zero_le _)
  have h2 : IntOp.cmpi .slt (x2 (ix2 q (0 : Fin 1))) 1000#32 = 1#1 :=
    (StableHlo.Predicate.slt_iff_toNat (by omega) (by decide)).2 hw
  rw [h1, h2]
  rfl

/-- Row `q` of the tile with the column `k` put on axis 1 is the entry (q, k). -/
theorem lift_row (h : S512x1000.Reduces [1] S512) (q : Fin 512) (k : Fin 1000) : h.lift (ix1 q) k = ix2 q k := by
  funext b
  match b with
  | ⟨0, _⟩ => exact Fin.ext rfl
  | ⟨1, _⟩ => exact Fin.ext rfl

/-- The sum over axis 1 from the zero pattern, read at a row: the sum of the row's thousand entries. -/
theorem rowSum (v : S512x1000.Idx → EReal) (h : S512x1000.Reduces [1] S512) (hφ : FKind.Formats .f32)
    (hacc : (0x00000000#32 : BitVec FTy.f32.bits) = FKind.add.neutral .f32 hφ) (q : Fin 512) :
    multiReduction (F := Ideal) (φ := .f32) .add [1] S512 v 0x00000000#32 h hφ hacc (ix1 q)
      = ∑ k : Fin 1000, v (ix2 q k) := by
  refine (Ideal.multiReduction_add_single v 0x00000000#32 h hφ hacc (ix1 q)).trans ?_
  exact Finset.sum_congr rfl fun c _ => congrArg v (lift_row h q c)

/-- Summing the entries of a row that the column-equals-label mask keeps (zero elsewhere) picks the row's entry at the
    label; kept as a column. -/
theorem pick_apply (x2 : Vec Ideal S512x1 .i32) (hr : ∀ q : Fin 512, (x2 (ix2 q (0 : Fin 1))).toNat < 1000)
    (v : FVec Ideal S512x1000 .f32) (q : Fin 512) :
    shapeCast S512x1
        (multiReduction (F := Ideal) (φ := .f32) .add [1] S512
          (select (k0_pay8 (F := Ideal) x2) v (broadcast S512x1000 (Scalar.ofBits (F := Ideal) .f32 0x00000000#32)))
          0x00000000#32 reduces_S512x1000_S512 (.inl rfl) rfl)
        shapeCasts_S512_S512x1 (ix2 q (0 : Fin 1))
      = v (ix2 q (lab x2 hr q)) := by
  rw [Cert.Lib.Column.shapeCast_a_a1_apply]
  refine (rowSum _ reduces_S512x1000_S512 (.inl rfl) rfl q).trans ?_
  have hk : ∀ k : Fin 1000,
      select (k0_pay8 (F := Ideal) x2) v (broadcast S512x1000 (Scalar.ofBits (F := Ideal) .f32 0x00000000#32)) (ix2 q k)
        = if k = lab x2 hr q then v (ix2 q k) else 0 := by
    intro k
    rw [select_apply, pay8_apply x2 hr q k]
    by_cases h : k = lab x2 hr q
    · rw [if_pos h, if_pos h, select_one]
    · rw [if_neg h, if_neg h, select_zero]
      exact Ideal.ofBits_zero_f32
  refine (Finset.sum_congr rfl fun k _ => hk k).trans ?_
  exact (Finset.sum_ite_eq' Finset.univ (lab x2 hr q) fun k => v (ix2 q k)).trans (if_pos (Finset.mem_univ _))

/-! The product of the exponentials with the transition matrix contracts axis 1 of its left operand with axis 0 of its
    right operand: at the output entry (q, y) and the contraction coordinate k it reads the left operand at (q, k) and
    the right operand at (k, y). -/

theorem lhs_prod_0 (i : S512x1000.Idx) (c : dot_S512x1000_S1000x1000_S512x1000_1_0_0_1_n_n.contr.Idx) :
    (dot_S512x1000_S1000x1000_S512x1000_1_0_0_1_n_n.lhsIdx i c 0).val = (i 0).val := by
  unfold DotDims.lhsIdx
  rw [dif_neg (show ¬(0 : Fin S512x1000.rank) ∈ dot_S512x1000_S1000x1000_S512x1000_1_0_0_1_n_n.lhsBatch by decide), dif_pos (show (0 : Fin S512x1000.rank) ∈ dot_S512x1000_S1000x1000_S512x1000_1_0_0_1_n_n.lhsNonContracting by decide)]
  rfl
theorem lhs_prod_1 (i : S512x1000.Idx) (c : dot_S512x1000_S1000x1000_S512x1000_1_0_0_1_n_n.contr.Idx) :
    (dot_S512x1000_S1000x1000_S512x1000_1_0_0_1_n_n.lhsIdx i c 1).val = (c ⟨0, by decide⟩).val :=
  dot_S512x1000_S1000x1000_S512x1000_1_0_0_1_n_n.lhsIdx_val_of_single rfl i c
theorem rhs_prod_0 (i : S512x1000.Idx) (c : dot_S512x1000_S1000x1000_S512x1000_1_0_0_1_n_n.contr.Idx) :
    (dot_S512x1000_S1000x1000_S512x1000_1_0_0_1_n_n.rhsIdx i c 0).val = (c ⟨0, by decide⟩).val :=
  dot_S512x1000_S1000x1000_S512x1000_1_0_0_1_n_n.rhsIdx_val_of_single rfl i c
theorem rhs_prod_1 (i : S512x1000.Idx) (c : dot_S512x1000_S1000x1000_S512x1000_1_0_0_1_n_n.contr.Idx) :
    (dot_S512x1000_S1000x1000_S512x1000_1_0_0_1_n_n.rhsIdx i c 1).val = (i 1).val := by
  unfold DotDims.rhsIdx
  rw [dif_neg (show ¬(1 : Fin S1000x1000.rank) ∈ dot_S512x1000_S1000x1000_S512x1000_1_0_0_1_n_n.rhsBatch by decide), dif_pos (show (1 : Fin S1000x1000.rank) ∈ dot_S512x1000_S1000x1000_S512x1000_1_0_0_1_n_n.rhsNonContracting by decide)]
  rfl

/-- The product's entry (q, y): the exponentials of row q's shifted logits against column y of the transition matrix. -/
theorem prod_apply (x0 : Vec Ideal S512x1000 .f32) (x1 : Vec Ideal S1000x1000 .bf16) (q : Fin 512) (y : Fin 1000) :
    matmul (F := Ideal) (φ₁ := .bf16) (φ₂ := .bf16) dot_S512x1000_S1000x1000_S512x1000_1_0_0_1_n_n none
        (truncf .bf16 (k0_pay5 (F := Ideal) x0) bitsLt_bf16_f32)
        (shapeCast S1000x1000 (x1 : FVec Ideal S1000x1000 .bf16) shapeCasts_S1000x1000_S1000x1000)
        (constant (F := Ideal) S512x1000 .f32 0x00000000#32) (ix2 q y)
      = wsum (brow x0 q) (bcol x1 y) := by
  rw [shapeCast_self]
  refine (Ideal.matmul_constant_zero_apply (φ₁ := .bf16) (φ₂ := .bf16) dot_S512x1000_S1000x1000_S512x1000_1_0_0_1_n_n none
    (truncf .bf16 (k0_pay5 (F := Ideal) x0) bitsLt_bf16_f32) x1 (ix2 q y)).trans ?_
  rw [← Equiv.sum_comp (contrEquiv1 dot_S512x1000_S1000x1000_S512x1000_1_0_0_1_n_n 1000 rfl rfl).symm]
  unfold wsum
  refine Finset.sum_congr rfl fun k _ => ?_
  have hk := contrEquiv1_symm_val dot_S512x1000_S1000x1000_S512x1000_1_0_0_1_n_n 1000 rfl rfl k
  have el : dot_S512x1000_S1000x1000_S512x1000_1_0_0_1_n_n.lhsIdx (ix2 q y) ((contrEquiv1 dot_S512x1000_S1000x1000_S512x1000_1_0_0_1_n_n 1000 rfl rfl).symm k) = ix2 q k :=
    funext fun a => Fin.ext (by
      match a with
      | ⟨0, _⟩ => exact lhs_prod_0 _ _
      | ⟨1, _⟩ => exact (lhs_prod_1 _ _).trans hk)
  have er : dot_S512x1000_S1000x1000_S512x1000_1_0_0_1_n_n.rhsIdx (ix2 q y) ((contrEquiv1 dot_S512x1000_S1000x1000_S512x1000_1_0_0_1_n_n 1000 rfl rfl).symm k) = ix2 k y :=
    funext fun a => Fin.ext (by
      match a with
      | ⟨0, _⟩ => exact (rhs_prod_0 _ _).trans hk
      | ⟨1, _⟩ => exact rhs_prod_1 _ _)
  rw [el, er, truncf_apply, pay5_apply]
  rfl

/-- The product of the exponentials with the transition matrix, picked at the label. -/
theorem pay10_apply (x0 : Vec Ideal S512x1000 .f32) (x1 : Vec Ideal S1000x1000 .bf16) (x2 : Vec Ideal S512x1 .i32)
    (hr : ∀ q : Fin 512, (x2 (ix2 q (0 : Fin 1))).toNat < 1000) (q : Fin 512) :
    k0_pay10 (F := Ideal) x0 x1 x2 (ix2 q (0 : Fin 1)) = wsum (brow x0 q) (bcol x1 (lab x2 hr q)) :=
  (pick_apply x2 hr _ q).trans (prod_apply x0 x1 q (lab x2 hr q))

/-- The shifted logit at the label. -/
theorem pay11_apply (x0 : Vec Ideal S512x1000 .f32) (x2 : Vec Ideal S512x1 .i32)
    (hr : ∀ q : Fin 512, (x2 (ix2 q (0 : Fin 1))).toNat < 1000) (q : Fin 512) :
    k0_pay11 (F := Ideal) x0 x2 (ix2 q (0 : Fin 1)) = sh (brow x0 q) (lab x2 hr q) :=
  (pick_apply x2 hr (k0_pay4 (F := Ideal) x0) q).trans (pay4_apply x0 q (lab x2 hr q))

/-- Its exponential. -/
theorem pay12_apply (x0 : Vec Ideal S512x1000 .f32) (x2 : Vec Ideal S512x1 .i32)
    (hr : ∀ q : Fin 512, (x2 (ix2 q (0 : Fin 1))).toNat < 1000) (q : Fin 512) :
    k0_pay12 (F := Ideal) x0 x2 (ix2 q (0 : Fin 1)) = Ideal.exp (sh (brow x0 q) (lab x2 hr q)) := by
  show Ideal.exp (k0_pay11 (F := Ideal) x0 x2 (ix2 q (0 : Fin 1))) = _
  rw [pay11_apply x0 x2 hr q]

/-- The product-is-zero mask is clear where the product is not zero. -/
theorem pay13_apply (x0 : Vec Ideal S512x1000 .f32) (x1 : Vec Ideal S1000x1000 .bf16) (x2 : Vec Ideal S512x1 .i32)
    (hr : ∀ q : Fin 512, (x2 (ix2 q (0 : Fin 1))).toNat < 1000) (q : Fin 512)
    (hne : wsum (brow x0 q) (bcol x1 (lab x2 hr q)) ≠ 0) :
    k0_pay13 (F := Ideal) x0 x1 x2 (ix2 q (0 : Fin 1)) = 0#1 := by
  show Ideal.cmp .oeq (k0_pay10 (F := Ideal) x0 x1 x2 (ix2 q (0 : Fin 1))) (Ideal.ofBits .f32 0x00000000#32) = 0#1
  rw [pay10_apply x0 x1 x2 hr q, Ideal.ofBits_zero_f32]
  show BitVec.ofBool (decide (wsum (brow x0 q) (bcol x1 (lab x2 hr q)) = 0)) = 0#1
  rw [decide_eq_false hne]
  rfl

end Cert.KernelIdeal.RowVal

end
-- ==== Proof.KernelRow.lean ====
/-
  The kernel body's arithmetic on one tile of 512 rows, over the extended reals.

  For each row of the tile the body takes the row's maximum, the shifted row s, S = Σ exp s, the product of exp s
  with the transition matrix, and picks — by comparing a column counter with the row's label and summing the selected
  entries — the product's entry P and the shifted logit s_y at the label y. With the label in range and P ≠ 0 the
  guards do nothing, and the row contributes (exp s_y / P) · (log S − s_y); the tile's contributions are summed and
  added to the accumulator.
-/
import proofs.«425515_j266287973106_3_alg».proof.Proof.Gen.KernelIdeal.Skeleton
import proofs.«425515_j266287973106_3_alg».proof.Proof.RowDefs
import proofs.«425515_j266287973106_3_alg».proof.Proof.KernelRowPick
import proofs.«425515_j266287973106_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RowVal

open Cert.KernelIdeal Cert.KernelIdeal.Gen Cert.Noise
open Idealize.ShloMosaic Idealize.ShloMosaic.TcCoe Idealize.ShloMosaic.ValueIdx

/-- Row `q` inserted on axis 0 of the one-entry vector's index is the column's entry `(q, 0)`. -/
theorem tile_lift_col (h : S512x1.Reduces [0] S1) (q : Fin 512) : h.lift (ix1 (0 : Fin 1)) q = ix2 q (0 : Fin 1) := by
  funext b
  match b with
  | ⟨0, _⟩ => exact Fin.ext rfl
  | ⟨1, _⟩ => exact Fin.ext rfl

/-- The sum over axis 0 of a [512, 1] column, at its one entry: the sum of the column's 512 entries. -/
theorem tile_colSum (v : S512x1.Idx → EReal) (h : S512x1.Reduces [0] S1) (hφ : FKind.Formats .f32)
    (hacc : (0x00000000#32 : BitVec FTy.f32.bits) = FKind.add.neutral .f32 hφ) :
    multiReduction (F := Ideal) (φ := .f32) .add [0] S1 v 0x00000000#32 h hφ hacc (ix1 (0 : Fin 1))
      = ∑ q : Fin 512, v (ix2 q (0 : Fin 1)) := by
  refine (Ideal.multiReduction_add_single v 0x00000000#32 h hφ hacc (ix1 (0 : Fin 1))).trans ?_
  exact Finset.sum_congr rfl fun q _ => congrArg v (tile_lift_col h q)

/-- The tile's update of the accumulator over any seven columns: where the first mask is set and the two product-is-zero
    masks are clear, the selects do nothing, and the one entry is the accumulator's plus the sum over the rows of
    (e / p) · (l − s). -/
theorem pay1_apply (v11 : FVec Ideal S512x1 .f32) (v25 : IVec S512x1 1) (v29 v33 v34 : FVec Ideal S512x1 .f32)
    (v36 : IVec S512x1 1) (v37 : FVec Ideal S512x1 .f32) (acc : Vec Ideal S1x1 .f32)
    (h25 : ∀ q : Fin 512, v25 (ix2 q (0 : Fin 1)) = 1#1)
    (h36 : ∀ q : Fin 512, v36 (ix2 q (0 : Fin 1)) = 0#1)
    (h40 : ∀ q : Fin 512,
      cmpf .oeq v29 (broadcast S512x1 (FloatOps.ofBits (F := Ideal) .f32 0x00000000#32)) (ix2 q (0 : Fin 1)) = 0#1) :
    k0_pay1 (F := Ideal) v11 v25 v29 v33 v34 v36 v37 acc (ix2 (0 : Fin 1) (0 : Fin 1))
      = acc (ix2 (0 : Fin 1) (0 : Fin 1))
        + ∑ q : Fin 512, Ideal.div (v34 (ix2 q (0 : Fin 1))) (v29 (ix2 q (0 : Fin 1)))
            * (v11 (ix2 q (0 : Fin 1)) - v33 (ix2 q (0 : Fin 1))) := by
  unfold k0_pay1
  rw [shapeCast_self, addf_apply]
  refine congrArg (fun t => acc (ix2 (0 : Fin 1) (0 : Fin 1)) + t) ?_
  refine (Cert.Lib.Column.shapeCast_a_a1_apply _ _ (0 : Fin 1) (0 : Fin 1)).trans ?_
  refine (tile_colSum _ _ _ _).trans ?_
  refine Finset.sum_congr rfl fun q _ => ?_
  rw [select_apply, h25 q, select_one, mulf_apply, select_apply, h40 q, select_zero, divf_apply, select_apply, h36 q,
    select_zero, subf_apply]

/-- The accumulator's one entry after the tile: its entry before, plus the tile's 512 losses. -/
theorem tile_apply (x0 : Vec Ideal S512x1000 .f32) (x1 : Vec Ideal S1000x1000 .bf16) (x2 : Vec Ideal S512x1 .i32)
    (acc : Vec Ideal S1x1 .f32)
    (hr : ∀ q : Fin 512, (x2 (ix2 q (0 : Fin 1))).toNat < 1000)
    (hne : ∀ q : Fin 512, wsum (brow x0 q) (bcol x1 (lab x2 hr q)) ≠ 0) :
    k0_pay1 (F := Ideal) (k0_pay6 x0) (k0_pay9 x2) (k0_pay10 x0 x1 x2) (k0_pay11 x0 x2) (k0_pay12 x0 x2)
        (k0_pay13 x0 x1 x2) (k0_pay14 (F := Ideal)) acc (ix2 (0 : Fin 1) (0 : Fin 1))
      = acc (ix2 (0 : Fin 1) (0 : Fin 1))
        + ∑ q : Fin 512, lossK (brow x0 q) (bcol x1 (lab x2 hr q)) (lab x2 hr q) := by
  refine (pay1_apply _ _ _ _ _ _ _ acc (fun q => pay9_apply x2 hr q)
    (fun q => pay13_apply x0 x1 x2 hr q (hne q)) (fun q => pay13_apply x0 x1 x2 hr q (hne q))).trans ?_
  refine congrArg (fun t => acc (ix2 (0 : Fin 1) (0 : Fin 1)) + t) (Finset.sum_congr rfl fun q _ => ?_)
  rw [pay12_apply x0 x2 hr q, pay10_apply x0 x1 x2 hr q, pay6_apply x0 q, pay11_apply x0 x2 hr q]
  rfl

/-- The reset value of the accumulator is zero. -/
theorem pay3_apply : (k0_pay3 (F := Ideal)) (ix2 (0 : Fin 1) (0 : Fin 1)) = (0 : EReal) := by
  unfold k0_pay3
  rw [shapeCast_self, broadcast_apply]
  exact Ideal.ofBits_zero_f32

/-- The output block is the accumulator, reshaped. -/
theorem pay2_apply (v : Vec Ideal S1x1 .f32) :
    k0_pay2 (F := Ideal) v (ix3 (0 : Fin 1) (0 : Fin 1) (0 : Fin 1)) = v (ix2 (0 : Fin 1) (0 : Fin 1)) := by
  unfold k0_pay2
  refine shapeCast_apply v _ _ _ ?_
  rw [Shape.rowMajor_val_two, Shape.rowMajor_val_three]
  rfl

end Cert.KernelIdeal.RowVal

end
-- ==== Proof.KernelTail.lean ====
/-
  The host operations after the kernel: the two per-half sums the kernel leaves in its [2, 1, 1] result are added and
  the total divided by the constant 32768.0.
-/
import proofs.«425515_j266287973106_3_alg».proof.Proof.Gen.KernelIdeal.Frame
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The indices of a [2, 1, 1] array are in bijection with its leading coordinate: the two trailing axes have one
    coordinate each. -/
def idxEquiv : Fin 2 ≃ S2x1x1.Idx where
  toFun c' := ix3 c' (0 : Fin 1) (0 : Fin 1)
  invFun j := (j 0 : Fin 2)
  left_inv c' := rfl
  right_inv j := by
    funext a
    match a with
    | ⟨0, _⟩ => rfl
    | ⟨1, _⟩ => exact Subsingleton.elim (α := Fin 1) _ _
    | ⟨2, _⟩ => exact Subsingleton.elim (α := Fin 1) _ _

/-- A sum over all indices of a [2, 1, 1] array is the sum over its leading coordinate. -/
theorem sum_idx (x : S2x1x1.Idx → EReal) :
    ∑ i : S2x1x1.Idx, x i = ∑ c' : Fin 2, x (ix3 c' (0 : Fin 1) (0 : Fin 1)) :=
  (Fintype.sum_equiv idxEquiv _ _ fun _ => rfl).symm

/-- If the kernel's result array ends at `G`, the program's result is (G(0,0,0) + G(1,0,0)) / 32768.0. -/
theorem tail_value (c : Dev nD) (G : Vec Ideal S2x1x1 .f32)
    (hfin : (dats m 0 c).arrAt 3 cfg0.N = G) :
    Pipeline.afterTail₀ cfgs (dats m) 0 (V0 m) [hostOps1] c main_v4
      = fun _ => Ideal.div (∑ c' : Fin 2, G (ix3 c' (0 : Fin 1) (0 : Fin 1))) (Ideal.ofBits .f32 0x47000000#32) := by
  unfold Pipeline.afterTail₀
  show StableHlo.after hostOps1 _ (Proc.devRef .tc main_v4) = _
  after_results
  -- the array the reduction reads is the region's result array, which ends at `G`
  have hv2 : Pipeline.withArrays (cfgs 0).spec c (V0 m c) (fun w => (dats m 0 c).arrAt w (cfgs 0).N)
      (Proc.devRef .tc main_v2) = G :=
    (Pipeline.withArrays_arr spec0 launch0.win.arr_inj c _ _ 3).trans hfin
  rw [hv2]
  funext j
  -- at the scalar's one index: the quotient of the reduction from the zero constant by the second constant
  show Ideal.div (Ideal.hostReduceAdd reducesTo_S2x1x1_S_d0_1_2 G (Ideal.ofBits .f32 0x00000000#32) j)
      (Ideal.ofBits .f32 0x47000000#32) = _
  -- a reduction over every axis is the initial value plus the total sum; the initial value is 0
  rw [Ideal.hostReduceAdd_total reducesTo_S2x1x1_S_d0_1_2 (fun b => b.elim0), Ideal.ofBits_zero_f32, zero_add,
    sum_idx]

end Cert.KernelIdeal.Tail

end
-- ==== Proof.KernelFinal.lean ====
/-
  The kernel's [2, 1, 1] result after the run, from what the output block holds at the two write-backs.

  The output window's block at grid point t is the single entry (⌊t/32⌋, 0, 0) of the result; it is written back at the
  last point of each half (t ≡ 31 mod 32), and those two blocks cover the result. So if the block stored at such a point
  holds G(⌊t/32⌋, 0, 0), the result ends at G.
-/
import proofs.«425515_j266287973106_3_alg».proof.Proof.Gen.KernelIdeal.Frame
import Idealize.ShloMosaic.Lib.ValueIdx
import Idealize.ShloMosaic.Lib.Pipeline.Value

set_option maxRecDepth 16384

noncomputable section

namespace Cert.KernelIdeal.Final

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The output window's block index at grid point t is (⌊t/32⌋, 0, 0): decided over the grid. -/
theorem idx_facts : ∀ t : Fin cfg0.N, win0_3.index t (0 : Fin 3) = t.val / 32
    ∧ win0_3.index t (1 : Fin 3) = 0 ∧ win0_3.index t (2 : Fin 3) = 0 :=
  (by decide +kernel : ∀ t : Fin grid0.N, win0_3.index t (0 : Fin 3) = t.val / 32
    ∧ win0_3.index t (1 : Fin 3) = 0 ∧ win0_3.index t (2 : Fin 3) = 0)

/-- The block the transfer moves has extent 1 on every axis, at every grid point. -/
theorem xsize_facts : ∀ (t : Fin cfg0.N) (a : Fin 3), win0_3.xsize (grid0.coords t) a = 1 :=
  (by decide +kernel : ∀ (t : Fin grid0.N) (a : Fin 3), win0_3.xsize (grid0.coords t) a = 1)

/-- The [1, 1, 1] block has the one index (0, 0, 0). -/
theorem idx_unit (x : S1x1x1.Idx) : x = ix3 (0 : Fin 1) (0 : Fin 1) (0 : Fin 1) := by
  have h0 : (x 0).val < 1 := (x 0).isLt
  have h1 : (x 1).val < 1 := (x 1).isLt
  have h2 : (x 2).val < 1 := (x 2).isLt
  funext a
  apply Fin.ext
  match a with
  | ⟨0, _⟩ => show (x 0).val = 0; omega
  | ⟨1, _⟩ => show (x 1).val = 0; omega
  | ⟨2, _⟩ => show (x 2).val = 0; omega

/-- What a write-back point t writes is block t of G: the one entry (⌊t/32⌋, 0, 0). -/
theorem flushed_eq (c : Dev nD) (G : Vec Ideal S2x1x1 .f32)
    (hout : ∀ (t : Fin cfg0.N) (ht : t.val < 64), t.val % 32 = 31 →
      (outsAt0 m c t.val t.isLt).1 (ix3 (0 : Fin 1) (0 : Fin 1) (0 : Fin 1))
        = G (ix3 (⟨t.val / 32, by omega⟩ : Fin 2) (0 : Fin 1) (0 : Fin 1)))
    (t : Fin cfg0.N) (hf : (cfg0.win 3).flush t = true) :
    (dats m 0 c).flushed 3 t = ((cfg0.win 3).blk t).view.read (Elt Ideal) G := by
  have hN : cfg0.N = 64 := N_0
  have h31 : t.val % 32 = 31 := (flush0_3 t).mp hf
  have ht : t.val < 64 := by have := t.isLt; omega
  obtain ⟨e0, e1, e2⟩ := idx_facts t
  funext y
  show (cfg0.win 3).cut (grid0.coords t) ((dats m 0 c).after 3 t) y = _
  rw [after0_3, View.read_apply]
  show (outsAt0 m c t.val t.isLt).1 (win0_3.xinj (grid0.coords t) y) = G (((cfg0.win 3).blk t).view.emb y)
  rw [idx_unit (win0_3.xinj (grid0.coords t) y)]
  refine (hout t ht h31).trans ?_
  refine congrArg G ?_
  have hy : ∀ a : Fin 3, (y a).val = 0 := fun a => by
    have h : (y a).val < win0_3.xsize (grid0.coords t) a := (y a).isLt
    have := xsize_facts t a; omega
  funext a
  apply Fin.ext
  match a with
  | ⟨0, _⟩ => show t.val / 32 = win0_3.index t (0 : Fin 3) * 1 + 1 * (y 0).val; rw [e0, hy 0]; omega
  | ⟨1, _⟩ => show 0 = win0_3.index t (1 : Fin 3) * 1 + 1 * (y 1).val; rw [e1, hy 1]
  | ⟨2, _⟩ => show 0 = win0_3.index t (2 : Fin 3) * 1 + 1 * (y 2).val; rw [e2, hy 2]

/-- An index of the result lies in the block at point t iff each coordinate is in the block's range on its axis. -/
theorem mem_blk (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + win0_3.xsize (grid0.coords t) a := by
  show i ∈ ((View.whole main_v2).slice (win0_3.rect t)).set ↔ _
  rw [View.set_slice_whole, Rect.mem_set_unit]
  exact Iff.rfl

/-- Every index of the result lies in the block of a write-back point: (q, 0, 0) in that of point 32 q + 31. -/
theorem cover (i : S2x1x1.Idx) :
    ∃ t : Fin cfg0.N, (cfg0.win 3).flush t = true ∧ i ∈ ((cfg0.win 3).blk t).view.set := by
  have hN : cfg0.N = 64 := N_0
  have h0 : (i 0).val < 2 := (i 0).isLt
  have h1 : (i 1).val < 1 := (i 1).isLt
  have h2 : (i 2).val < 1 := (i 2).isLt
  let t : Fin cfg0.N := ⟨(i 0).val * 32 + 31, by omega⟩
  have htv : t.val = (i 0).val * 32 + 31 := rfl
  obtain ⟨e0, e1, e2⟩ := idx_facts t
  refine ⟨t, (flush0_3 t).mpr (by omega), ?_⟩
  rw [mem_blk]
  intro a
  match a with
  | ⟨0, _⟩ => show win0_3.index t (0 : Fin 3) * 1 ≤ (i 0).val ∧ (i 0).val < win0_3.index t (0 : Fin 3) * 1 + win0_3.xsize (grid0.coords t) (0 : Fin 3)
              rw [e0, xsize_facts t (0 : Fin 3)]; omega
  | ⟨1, _⟩ => show win0_3.index t (1 : Fin 3) * 1 ≤ (i 1).val ∧ (i 1).val < win0_3.index t (1 : Fin 3) * 1 + win0_3.xsize (grid0.coords t) (1 : Fin 3)
              rw [e1, xsize_facts t (1 : Fin 3)]; omega
  | ⟨2, _⟩ => show win0_3.index t (2 : Fin 3) * 1 ≤ (i 2).val ∧ (i 2).val < win0_3.index t (2 : Fin 3) * 1 + win0_3.xsize (grid0.coords t) (2 : Fin 3)
              rw [e2, xsize_facts t (2 : Fin 3)]; omega

theorem final_of (c : Dev nD) (G : Vec Ideal S2x1x1 .f32)
    (hout : ∀ (t : Fin cfg0.N) (ht : t.val < 64), t.val % 32 = 31 →
      (outsAt0 m c t.val t.isLt).1 (ix3 (0 : Fin 1) (0 : Fin 1) (0 : Fin 1))
        = G (ix3 (⟨t.val / 32, by omega⟩ : Fin 2) (0 : Fin 1) (0 : Fin 1))) :
    (dats m 0 c).arrAt 3 cfg0.N = G :=
  (dats m 0 c).arrAt_eq_of_cover 3 G (flushed_eq m c G hout) cover

end Cert.KernelIdeal.Final

end
-- ==== Proof.KernelFold.lean ====
/-
  The kernel's run, read as values: what the 1 × 1 accumulator holds after each grid point, what the two write-backs
  put into the [2, 1, 1] result, and the program's result after the host operations that follow.

  Grid point t (of 64) handles tile t: rows 512·t … 512·t + 511. Within a half (32 consecutive points) the accumulator
  is reset at the first point and takes each tile's 512 losses in turn, so after point t it holds the losses of the
  tiles 32·⌊t/32⌋ … t; the last point of each half writes that sum into entry ⌊t/32⌋ of the result.
-/
import proofs.«425515_j266287973106_3_alg».proof.Proof.Gen.KernelIdeal.Frame
import proofs.«425515_j266287973106_3_alg».proof.Proof.KernelPieces
import proofs.«425515_j266287973106_3_alg».proof.Proof.KernelBlocks
import proofs.«425515_j266287973106_3_alg».proof.Proof.KernelRow
import proofs.«425515_j266287973106_3_alg».proof.Proof.KernelTail
import proofs.«425515_j266287973106_3_alg».proof.Proof.KernelFinal
import proofs.«425515_j266287973106_3_alg».proof.Proof.RowDefs
import Idealize.ShloMosaic.Lib.ValueIdx
import Idealize.ShloMosaic.Lib.Pipeline.Value

set_option maxRecDepth 16384

noncomputable section

namespace Cert.KernelIdeal.Fold

open Cert.KernelIdeal Cert.KernelIdeal.Gen Cert.KernelIdeal.Blocks Cert.KernelIdeal.RowVal Cert.KernelIdeal.Pieces Cert.Noise
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- What the precondition gives of device `c`'s arguments: every label names a class, and no row's divisor is zero. -/
structure Ok (c : Dev nD) : Prop where
  hr : ∀ i : Fin 32768, (arr2 m c (ix1 i)).toNat < 1000
  hne : ∀ i : Fin 32768, wsum (fun k => arr0 m c (ix2 i k)) (fun k => arr1 m c (ix2 k ⟨(arr2 m c (ix1 i)).toNat, hr i⟩)) ≠ 0

variable {m}

/-- The loss of row `i`. -/
def rowLoss {c : Dev nD} (ok : Ok m c) (i : Fin 32768) : EReal :=
  lossK (fun k => arr0 m c (ix2 i k)) (fun k => arr1 m c (ix2 k ⟨(arr2 m c (ix1 i)).toNat, ok.hr i⟩))
    ⟨(arr2 m c (ix1 i)).toNat, ok.hr i⟩

/-- The 512 losses of tile `n` (zero past the 64 tiles). -/
def tileLoss {c : Dev nD} (ok : Ok m c) (n : ℕ) : EReal :=
  if hn : n < 64 then ∑ q : Fin 512, rowLoss ok (tileRow n hn q) else 0

/-- One grid point's step on the accumulator's entry: it takes the point's tile. -/
theorem step_val {c : Dev nD} (ok : Ok m c) (t : Fin cfg0.N) (acc : Vec Ideal S1x1 .f32) :
    tilePay (blk0 m c t) (blk1 m c t) (blk2 m c t) acc (ix2 (0 : Fin 1) (0 : Fin 1))
      = acc (ix2 (0 : Fin 1) (0 : Fin 1)) + tileLoss ok t.val := by
  have ht : t.val < 64 := lt_of_lt_of_eq t.isLt (show cfg0.N = 64 from N_0)
  have hr' : ∀ q : Fin 512, (blk2 m c t (ix2 q (0 : Fin 1))).toNat < 1000 := fun q => by
    rw [blk2_apply m c t ht q]; exact ok.hr _
  have hy : ∀ q : Fin 512, lab (blk2 m c t) hr' q = ⟨(arr2 m c (ix1 (tileRow t.val ht q))).toNat, ok.hr _⟩ := fun q =>
    Fin.ext (show (blk2 m c t (ix2 q (0 : Fin 1))).toNat = (arr2 m c (ix1 (tileRow t.val ht q))).toNat from
      congrArg BitVec.toNat (blk2_apply m c t ht q))
  have hrow : ∀ q : Fin 512, brow (blk0 m c t) q = fun k => arr0 m c (ix2 (tileRow t.val ht q) k) := fun q =>
    funext fun k => blk0_apply m c t ht q k
  have hcol : ∀ y : Fin 1000, bcol (blk1 m c t) y = fun k => arr1 m c (ix2 k y) := fun y =>
    funext fun k => blk1_apply m c t k y
  have hne' : ∀ q : Fin 512, wsum (brow (blk0 m c t) q) (bcol (blk1 m c t) (lab (blk2 m c t) hr' q)) ≠ 0 := fun q => by
    rw [hy q, hrow q, hcol]; exact ok.hne _
  unfold tilePay
  refine (tile_apply (blk0 m c t) (blk1 m c t) (blk2 m c t) acc hr' hne').trans ?_
  congr 1
  unfold tileLoss
  rw [dif_pos ht]
  refine Finset.sum_congr rfl fun q _ => ?_
  rw [hy q, hrow q, hcol]
  rfl

/-! ## The accumulator after each point -/

/-- The accumulator's entry after point `n`: the losses of the tiles of `n`'s half up to `n`. -/
def accAfter {c : Dev nD} (ok : Ok m c) (n : ℕ) : EReal :=
  ∑ j ∈ Finset.range (n % 32 + 1), tileLoss ok (n / 32 * 32 + j)

theorem accAfter_reset {c : Dev nD} (ok : Ok m c) (n : ℕ) (h0 : n % 32 = 0) : accAfter ok n = 0 + tileLoss ok n := by
  unfold accAfter
  rw [h0, zero_add, Finset.sum_range_one, Nat.add_zero, zero_add]
  congr 1
  omega

theorem accAfter_step {c : Dev nD} (ok : Ok m c) (n : ℕ) (h0 : ¬(n + 1) % 32 = 0) :
    accAfter ok (n + 1) = accAfter ok n + tileLoss ok (n + 1) := by
  unfold accAfter
  have h1 : (n + 1) % 32 = n % 32 + 1 := by omega
  have h2 : (n + 1) / 32 = n / 32 := by omega
  rw [h1, h2, Finset.sum_range_succ]
  congr 2
  omega

/-- At the first point of a half the accumulator starts from zero. -/
theorem snd_A {c : Dev nD} (ok : Ok m c) (t : Fin cfg0.N) (h0 : t.val % 32 = 0) (h1 : ¬t.val % 32 = 31) :
    (outsAt0 m c t.val t.isLt).2 (ix2 (0 : Fin 1) (0 : Fin 1)) = 0 + tileLoss ok t.val := by
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (blk0 m c t) (blk1 m c t) (blk2 m c t)) (ix2 (0 : Fin 1) (0 : Fin 1))).trans ?_
  rw [step_val ok t, pay3_apply]

/-- At an inner point it continues from what the point before left. -/
theorem snd_B {c : Dev nD} (ok : Ok m c) (t : Fin cfg0.N) (h0 : ¬t.val % 32 = 0) (h1 : ¬t.val % 32 = 31) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + tileLoss ok t.val := by
  rw [outsAt0_B m c t h0 h1]
  dsimp only
  refine (congrFun (sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (blk0 m c t) (blk1 m c t) (blk2 m c t) (outsAt0 m c (t.val - 1) (Nat.lt_of_le_of_lt (Nat.sub_le _ _) t.isLt)).2) (ix2 (0 : Fin 1) (0 : Fin 1))).trans ?_
  rw [step_val ok t]

/-- The same at the last point of a half … -/
theorem snd_C {c : Dev nD} (ok : Ok m c) (t : Fin cfg0.N) (h0 : ¬t.val % 32 = 0) (h1 : t.val % 32 = 31) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + tileLoss ok t.val := by
  rw [outsAt0_C m c t h0 h1]
  dsimp only
  refine (congrFun (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blk0 m c t) (blk1 m c t) (blk2 m c t) (outsAt0 m c (t.val - 1) (Nat.lt_of_le_of_lt (Nat.sub_le _ _) t.isLt)).2) (ix2 (0 : Fin 1) (0 : Fin 1))).trans ?_
  rw [step_val ok t]

/-- … where the output block takes the accumulator's new value. -/
theorem fst_C {c : Dev nD} (ok : Ok m c) (t : Fin cfg0.N) (h0 : ¬t.val % 32 = 0) (h1 : t.val % 32 = 31) :
    (outsAt0 m c t.val t.isLt).1 (ix3 (0 : Fin 1) (0 : Fin 1) (0 : Fin 1))
      = (outsAt0 m c (t.val - 1) (Nat.lt_of_le_of_lt (Nat.sub_le _ _) t.isLt)).2 (ix2 (0 : Fin 1) (0 : Fin 1)) + tileLoss ok t.val := by
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blk0 m c t) (blk1 m c t) (blk2 m c t) (outsAt0 m c (t.val - 1) (Nat.lt_of_le_of_lt (Nat.sub_le _ _) t.isLt)).2) (ix3 (0 : Fin 1) (0 : Fin 1) (0 : Fin 1))).trans ?_
  rw [pay2_apply, step_val ok t]

/-- After point `n` the accumulator holds the losses of the tiles of `n`'s half up to `n`: by induction on the point. -/
theorem acc_eq {c : Dev nD} (ok : Ok m c) :
    ∀ (n : ℕ) (h : n < cfg0.N), (outsAt0 m c n h).2 (ix2 (0 : Fin 1) (0 : Fin 1)) = accAfter ok n
  | 0, h => by
    rw [snd_A ok ⟨0, h⟩ rfl (show ¬(0 : ℕ) % 32 = 31 by decide), accAfter_reset ok 0 rfl]
  | n + 1, h => by
    have ih := acc_eq ok n (Nat.lt_of_succ_lt h)
    by_cases h0 : (n + 1) % 32 = 0
    · have h1 : ¬(n + 1) % 32 = 31 := by omega
      rw [snd_A ok ⟨n + 1, h⟩ h0 h1, accAfter_reset ok (n + 1) h0]
    · by_cases h1 : (n + 1) % 32 = 31
      · rw [snd_C ok ⟨n + 1, h⟩ h0 h1, accAfter_step ok n h0]
        exact congrArg (· + tileLoss ok (n + 1)) ih
      · rw [snd_B ok ⟨n + 1, h⟩ h0 h1, accAfter_step ok n h0]
        exact congrArg (· + tileLoss ok (n + 1)) ih

/-- The output block stored at the last point of a half holds that half's 32 tiles. -/
theorem out_eq {c : Dev nD} (ok : Ok m c) (t : Fin cfg0.N) (h1 : t.val % 32 = 31) :
    (outsAt0 m c t.val t.isLt).1 (ix3 (0 : Fin 1) (0 : Fin 1) (0 : Fin 1)) = accAfter ok t.val := by
  have h0 : ¬t.val % 32 = 0 := by omega
  obtain ⟨n, hn⟩ : ∃ n, t.val = n + 1 := ⟨t.val - 1, by omega⟩
  have hlt : n < cfg0.N := by have := t.isLt; omega
  rw [fst_C ok t h0 h1]
  have e : (outsAt0 m c (t.val - 1) (Nat.lt_of_le_of_lt (Nat.sub_le _ _) t.isLt)).2 (ix2 (0 : Fin 1) (0 : Fin 1)) = accAfter ok n := by
    have := acc_eq ok n hlt
    convert this using 4
    omega
  rw [e, hn, accAfter_step ok n (by omega)]

/-! ## The result array, and the program's result -/

/-- The kernel's [2, 1, 1] result: entry (c', 0, 0) is the sum of the losses of the 32 tiles of half c'. -/
def G3 {c : Dev nD} (ok : Ok m c) : Vec Ideal S2x1x1 .f32 :=
  fun i => ∑ j ∈ Finset.range 32, tileLoss ok ((i 0).val * 32 + j)

/-- After the run the result array holds it. -/
theorem final3 {c : Dev nD} (ok : Ok m c) : (dats m 0 c).arrAt 3 cfg0.N = G3 ok :=
  Final.final_of m c (G3 ok) fun t ht h1 => by
    rw [out_eq ok t h1]
    unfold accAfter G3
    rw [h1]

/-- The program's result: the two halves' sums added and divided by the constant 32768.0. -/
def kernelLoss {c : Dev nD} (ok : Ok m c) : EReal :=
  Ideal.div (∑ c' : Fin 2, ∑ j ∈ Finset.range 32, tileLoss ok (c'.val * 32 + j)) (Ideal.ofBits .f32 0x47000000#32)

variable (m) in
/-- The run, read: the result buffer at the mean loss, the arguments unchanged. -/
theorem run_value (oks : ∀ c : Dev nD, Ok m c) :
    θ_run defs (onTc (τ := τ) (main (F := Ideal))) ⟨m, fun _ => 0, ρ⟩ fun r => ∀ c : Dev nD,
      r.2.mem ((c.tc : Thread nD τ).loc main_v4) = (fun _ => kernelLoss (oks c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans
        (Tail.tail_value m c (G3 (oks c)) (final3 (oks c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Fold

end
-- ==== Proof.HostDefs.lean ====
/-
  The host-side chain both the reference program and the precondition spell, as functions of the argument arrays over
  the extended reals: the logarithm of the softmax of each row of the logits, the (row, label) index pairs, the entries
  a 2-component gather picks with them, the softmax against the transition matrix, and the mean over the rows of the
  per-sample losses.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import proofs.«425515_j266287973106_3_alg».proof.Proof.RowDefs

noncomputable section

namespace Cert.Noise

open Idealize.ShloMosaic Idealize.ShloMosaic.ValueIdx

/-- The logits: 32768 rows of 1000. -/
abbrev SNC : Shape := ⟨2, ![32768, 1000]⟩
/-- The transition matrix. -/
abbrev SCC : Shape := ⟨2, ![1000, 1000]⟩
/-- One value per row. -/
abbrev SN : Shape := ⟨1, ![32768]⟩
/-- One value per row, as a column. -/
abbrev SN1 : Shape := ⟨2, ![32768, 1]⟩
/-- One (row, label) pair per row. -/
abbrev SN2 : Shape := ⟨2, ![32768, 2]⟩
/-- A single value. -/
abbrev S0 : Shape := ⟨0, ![]⟩

/-- The shape relations the chain's operations take as evidence. -/
structure HostFacts : Prop where
  red : SNC.ReducesTo [1] SN
  hu : 0 < S0.numel
  b0 : S0.BroadcastsInDim SN (![] : Fin 0 → Fin SN.rank)
  b1 : SN.BroadcastsInDim SN1 (![0] : Fin 1 → Fin SN1.rank)
  b2 : SN1.BroadcastsInDim SNC (![0, 1] : Fin 2 → Fin SNC.rank)
  cat : Shape.Concatenates [SN1, SN1] SN2 1
  gwf : GatherDims.WF SNC SN2 SN [] [0, 1] [] [0, 1] [] 1 ![1, 1]
  dwf : DotDims.WF SNC SCC SNC [1] [0] [0] [1] [] []
  red0 : SN.ReducesTo [0] S0

variable (h : HostFacts)

/-- The gather that picks one entry per row: both operand axes collapsed, the start index the pair (row, column). -/
def gd : GatherDims SNC SN2 SN where
  offsetDims := []
  collapsedSliceDims := [0, 1]
  operandBatchingDims := []
  startIndicesBatchingDims := []
  startIndexMap := [0, 1]
  indexVectorDim := 1
  sliceSizes := ![1, 1]
  wf := h.gwf

/-- The product of a [32768, 1000] array with the [1000, 1000] matrix: axis 1 against axis 0. -/
def dd : DotDims SNC SCC SNC where
  lhsContracting := [1]
  rhsContracting := [0]
  lhsNonContracting := [0]
  rhsNonContracting := [1]
  lhsBatch := []
  rhsBatch := []
  wf := h.dwf

/-- Each row's maximum, laid back along the row. -/
def maxB (x : FVec Ideal SNC .f32) : FVec Ideal SNC .f32 :=
  broadcastInDim SNC ![0, 1] h.b2 (broadcastInDim SN1 ![0] h.b1
    (maximumf (F := Ideal) (φ := .f32) (broadcastInDim SN ![] h.b0 (constant (F := Ideal) S0 .f32 0xFF800000#32))
      (Host.reduce (FloatOps.maximumf (F := Ideal) (φ := .f32)) x (constant (F := Ideal) S0 .f32 0xFF800000#32) h.red h.hu)))

/-- The logits shifted by their row's maximum. -/
def shifted (x : FVec Ideal SNC .f32) : FVec Ideal SNC .f32 := subf (F := Ideal) (φ := .f32) x (maxB h x)

/-- The logarithm of the softmax of each row. -/
def logSm (x : FVec Ideal SNC .f32) : FVec Ideal SNC .f32 :=
  subf (F := Ideal) (φ := .f32) (shifted h x)
    (broadcastInDim SNC ![0, 1] h.b2 (Host.log (F := Ideal) (φ := .f32) (broadcastInDim SN1 ![0] h.b1
      (Host.reduceAdd (F := Ideal) (φ := .f32) (Host.exp (F := Ideal) (φ := .f32) (shifted h x))
        (constant (F := Ideal) S0 .f32 0x00000000#32) h.red h.hu))))

/-- An index word with a negative value wrapped once by the axis length `n` (what indexing with a negative
    integer means). -/
def wrapIdx (n : BitVec 32) (v : IVec SN 32) : IVec SN 32 :=
  select (cmpi .slt v (broadcastInDim SN ![] h.b0 (constantI S0 32 0#32)))
    (addi v (broadcastInDim SN ![] h.b0 (constantI S0 32 n))) v

/-- The (row, label) index pairs: column 0 the row numbers, column 1 the labels, each wrapped. -/
def pointIdx (tgt : IVec SN 32) : IVec SN2 32 :=
  concatenate SN2 1 [⟨SN1, broadcastInDim SN1 ![0] h.b1 (wrapIdx h 32768#32 (iotaInDim SN 32 0))⟩,
    ⟨SN1, broadcastInDim SN1 ![0] h.b1 (wrapIdx h 1000#32 tgt)⟩] h.cat

/-- The entries of `z` at the (row, label) pairs. -/
def gatherAt (z : FVec Ideal SNC .f32) (tgt : IVec SN 32) : FVec Ideal SN .f32 :=
  Host.gather (gd h) z (pointIdx h tgt)

/-- The softmax of the rows against the transition matrix. -/
def smT (x : FVec Ideal SNC .f32) (T : FVec Ideal SCC .f32) : FVec Ideal SNC .f32 :=
  Host.dotGeneral (F := Ideal) (dd h) none (Host.exp (F := Ideal) (φ := .f32) (logSm h x)) T

/-- Its entries at the (row, label) pairs: each sample's divisor. -/
def pro2 (x : FVec Ideal SNC .f32) (T : FVec Ideal SCC .f32) (tgt : IVec SN 32) : FVec Ideal SN .f32 :=
  gatherAt h (smT h x T) tgt

/-- The mean over the rows of (softmax at the label / divisor) · (− log-softmax at the label). -/
def refLoss (x : FVec Ideal SNC .f32) (T : FVec Ideal SCC .f32) (tgt : IVec SN 32) : FVec Ideal S0 .f32 :=
  Host.divf (F := Ideal) (φ := .f32)
    (Host.reduceAdd (F := Ideal) (φ := .f32)
      (mulf (F := Ideal) (φ := .f32)
        (Host.divf (F := Ideal) (φ := .f32) (gatherAt h (Host.exp (F := Ideal) (φ := .f32) (logSm h x)) tgt) (pro2 h x T tgt))
        (Host.negf (F := Ideal) (φ := .f32) (gatherAt h (logSm h x) tgt)))
      (constant (F := Ideal) S0 .f32 0x00000000#32) h.red0 h.hu)
    (constant (F := Ideal) S0 .f32 0x47000000#32)

/-! ## Rows, columns, labels -/

/-- Row `i` of the logits. -/
def rowOfArr (x : FVec Ideal SNC .f32) (i : Fin 32768) : Row := fun k => x (ix2 i k)
/-- Column `y` of the transition matrix. -/
def colOfArr (T : FVec Ideal SCC .f32) (y : Fin 1000) : Row := fun k => T (ix2 k y)

/-- A label word that names one of the 1000 classes. -/
def InRange (w : BitVec 32) : Prop := w.toNat < 1000

end Cert.Noise

end
-- ==== Proof.RefValue.lean ====
/-
  The reference program's run, read as a value: its 79 host operations leave in the result buffer the chain of
  HostDefs.lean — the logarithm of the softmax of each row, the (row, label) pairs, the three gathers, the product
  with the transition matrix, the quotient, the product with the negated log-softmax entry, the sum over the rows
  and the division by 32768.0 — of the three argument arrays, and leave the arguments as they were.
-/
import proofs.«425515_j266287973106_3_alg».proof.Proof.RefRunPatched
import proofs.«425515_j266287973106_3_alg».proof.Proof.HostDefs
import Idealize.ShloMosaic.Lib.StableHlo.Run
import Idealize.ShloMosaic.Lib.Pipeline.Frame

noncomputable section

namespace Cert.ReferenceIdeal.RefValue

open Cert.ReferenceIdeal Cert.ReferenceIdeal.Gen Cert.ReferenceIdeal.ValueP Cert.Noise
open Idealize.ShloMosaic Idealize.ShloMosaic.TcCoe Idealize.SL.Sem Idealize.ShloMosaic.StableHlo

/-- The reference's shape relations are the chain's. -/
theorem refFacts : HostFacts where
  red := Cert.ReferenceIdeal.Facts₀.reducesTo_S32768x1000_S32768_d1
  hu := Cert.ReferenceIdeal.Facts₀.h_S_
  b0 := Cert.ReferenceIdeal.Facts₀.bcast_S_S32768
  b1 := Cert.ReferenceIdeal.Facts₀.bcast_S32768_S32768x1_0
  b2 := Cert.ReferenceIdeal.Facts₀.bcast_S32768x1_S32768x1000_0_1
  cat := Cert.ReferenceIdeal.Facts₀.concatenates_S32768x1_S32768x1_S32768x2_d1
  gwf := Cert.ReferenceIdeal.Facts₀.gather_S32768x1000_S32768x2_S32768_n_01_n_n_01_1_11_wf
  dwf := Cert.ReferenceIdeal.Facts₀.dot_S32768x1000_S1000x1000_S32768x1000_1_0_0_1_n_n_wf
  red0 := Cert.ReferenceIdeal.Facts₀.reducesTo_S32768_S_d0

section Chunks

variable {F : FTy → Type} [FloatOps F]

/-- Operations 1–17 of the reference program, in order. -/
def opsA : List (HloOp τ sig (Elt F)) :=
  [ nullary main_v0 (iotaInDim S32768 32 0),
    TRef.nullary (TRef.of (T := ⟨S_, .f32⟩) main_call0_cst) (constant S_ .f32 0xFF800000#32),
    TRef.binary (TRef.of (T := ⟨S32768x1000, .f32⟩) main_arg0) (TRef.of (T := ⟨S_, .f32⟩) main_call0_cst) (TRef.of (T := ⟨S32768, .f32⟩) main_call0_v0) (fun x v => Host.reduce FloatOps.maximumf x v reducesTo_S32768x1000_S32768_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S32768, .f32⟩) main_call0_v1) (broadcastInDim S32768 ![] bcast_S_S32768),
    TRef.binary (TRef.of (T := ⟨S32768, .f32⟩) main_call0_v1) (TRef.of (T := ⟨S32768, .f32⟩) main_call0_v0) (TRef.of (T := ⟨S32768, .f32⟩) main_call0_v2) maximumf,
    TRef.unary (TRef.of (T := ⟨S32768, .f32⟩) main_call0_v2) (TRef.of (T := ⟨S32768x1, .f32⟩) main_call0_v3) (broadcastInDim S32768x1 ![0] bcast_S32768_S32768x1_0),
    TRef.unary (TRef.of (T := ⟨S32768x1, .f32⟩) main_call0_v3) (TRef.of (T := ⟨S32768x1000, .f32⟩) main_call0_v4) (broadcastInDim S32768x1000 ![0, 1] bcast_S32768x1_S32768x1000_0_1),
    TRef.binary (TRef.of (T := ⟨S32768x1000, .f32⟩) main_arg0) (TRef.of (T := ⟨S32768x1000, .f32⟩) main_call0_v4) (TRef.of (T := ⟨S32768x1000, .f32⟩) main_call0_v5) subf,
    TRef.unary (TRef.of (T := ⟨S32768x1000, .f32⟩) main_call0_v5) (TRef.of (T := ⟨S32768x1000, .f32⟩) main_call0_v6) Host.exp,
    TRef.nullary (TRef.of (T := ⟨S_, .f32⟩) main_call0_cst_1) (constant S_ .f32 0x00000000#32),
    TRef.binary (TRef.of (T := ⟨S32768x1000, .f32⟩) main_call0_v6) (TRef.of (T := ⟨S_, .f32⟩) main_call0_cst_1) (TRef.of (T := ⟨S32768, .f32⟩) main_call0_v7) (fun x v => Host.reduceAdd x v reducesTo_S32768x1000_S32768_d1 h_S_),
    TRef.unary (TRef.of (T := ⟨S32768, .f32⟩) main_call0_v7) (TRef.of (T := ⟨S32768x1, .f32⟩) main_call0_v8) (broadcastInDim S32768x1 ![0] bcast_S32768_S32768x1_0),
    TRef.unary (TRef.of (T := ⟨S32768x1, .f32⟩) main_call0_v8) (TRef.of (T := ⟨S32768x1, .f32⟩) main_call0_v9) Host.log,
    TRef.unary (TRef.of (T := ⟨S32768x1, .f32⟩) main_call0_v9) (TRef.of (T := ⟨S32768x1000, .f32⟩) main_call0_v10) (broadcastInDim S32768x1000 ![0, 1] bcast_S32768x1_S32768x1000_0_1),
    TRef.binary (TRef.of (T := ⟨S32768x1000, .f32⟩) main_call0_v5) (TRef.of (T := ⟨S32768x1000, .f32⟩) main_call0_v10) (TRef.of (T := ⟨S32768x1000, .f32⟩) main_v1) subf,
    unary main_v1 main_v2 (Host.exp : (⟨S32768x1000, .f32⟩ : BufTy).Contents (Elt F) → (⟨S32768x1000, .f32⟩ : BufTy).Contents (Elt F)) ]

/-- Operations 18–35 of the reference program, in order. -/
def opsB : List (HloOp τ sig (Elt F)) :=
  [ nullary main_c (constantI S_ 32 0#32),
    unary main_c main_v3 (broadcastInDim S32768 ![] bcast_S_S32768 : (⟨S_, .i32⟩ : BufTy).Contents (Elt F) → (⟨S32768, .i32⟩ : BufTy).Contents (Elt F)),
    binary main_v0 main_v3 main_v4 (cmpi .slt : (⟨S32768, .i32⟩ : BufTy).Contents (Elt F) → (⟨S32768, .i32⟩ : BufTy).Contents (Elt F) → (⟨S32768, .i1⟩ : BufTy).Contents (Elt F)),
    nullary main_c_0 (constantI S_ 32 32768#32),
    unary main_c_0 main_v5 (broadcastInDim S32768 ![] bcast_S_S32768 : (⟨S_, .i32⟩ : BufTy).Contents (Elt F) → (⟨S32768, .i32⟩ : BufTy).Contents (Elt F)),
    binary main_v0 main_v5 main_v6 (addi : (⟨S32768, .i32⟩ : BufTy).Contents (Elt F) → (⟨S32768, .i32⟩ : BufTy).Contents (Elt F) → (⟨S32768, .i32⟩ : BufTy).Contents (Elt F)),
    ternary main_v4 main_v6 main_v0 main_v7 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    nullary main_c_1 (constantI S_ 32 0#32),
    unary main_c_1 main_v8 (broadcastInDim S32768 ![] bcast_S_S32768 : (⟨S_, .i32⟩ : BufTy).Contents (Elt F) → (⟨S32768, .i32⟩ : BufTy).Contents (Elt F)),
    binary main_arg2 main_v8 main_v9 (cmpi .slt : (⟨S32768, .i32⟩ : BufTy).Contents (Elt F) → (⟨S32768, .i32⟩ : BufTy).Contents (Elt F) → (⟨S32768, .i1⟩ : BufTy).Contents (Elt F)),
    nullary main_c_2 (constantI S_ 32 1000#32),
    unary main_c_2 main_v10 (broadcastInDim S32768 ![] bcast_S_S32768 : (⟨S_, .i32⟩ : BufTy).Contents (Elt F) → (⟨S32768, .i32⟩ : BufTy).Contents (Elt F)),
    binary main_arg2 main_v10 main_v11 (addi : (⟨S32768, .i32⟩ : BufTy).Contents (Elt F) → (⟨S32768, .i32⟩ : BufTy).Contents (Elt F) → (⟨S32768, .i32⟩ : BufTy).Contents (Elt F)),
    ternary main_v9 main_v11 main_arg2 main_v12 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v7 main_v13 (broadcastInDim S32768x1 ![0] bcast_S32768_S32768x1_0 : (⟨S32768, .i32⟩ : BufTy).Contents (Elt F) → (⟨S32768x1, .i32⟩ : BufTy).Contents (Elt F)),
    unary main_v12 main_v14 (broadcastInDim S32768x1 ![0] bcast_S32768_S32768x1_0 : (⟨S32768, .i32⟩ : BufTy).Contents (Elt F) → (⟨S32768x1, .i32⟩ : BufTy).Contents (Elt F)),
    binary main_v13 main_v14 main_v15 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    binary main_v2 main_v15 main_v16 ((fun x i => Host.gather gather_S32768x1000_S32768x2_S32768_n_01_n_n_01_1_11 x i) : (⟨S32768x1000, .f32⟩ : BufTy).Contents (Elt F) → (⟨S32768x2, .i32⟩ : BufTy).Contents (Elt F) → (⟨S32768, .f32⟩ : BufTy).Contents (Elt F)) ]

/-- Operation 36 of the reference program: the product with the transition matrix. -/
def opsC : List (HloOp τ sig (Elt F)) :=
  [ binary main_v2 main_arg1 main_v17 ((fun l r => Host.dotGeneral dot_S32768x1000_S1000x1000_S32768x1000_1_0_0_1_n_n none l r) : (⟨S32768x1000, .f32⟩ : BufTy).Contents (Elt F) → (⟨S1000x1000, .f32⟩ : BufTy).Contents (Elt F) → (⟨S32768x1000, .f32⟩ : BufTy).Contents (Elt F)) ]

/-- Operations 37–54 of the reference program, in order. -/
def opsD : List (HloOp τ sig (Elt F)) :=
  [ nullary main_c_3 (constantI S_ 32 0#32),
    unary main_c_3 main_v18 (broadcastInDim S32768 ![] bcast_S_S32768 : (⟨S_, .i32⟩ : BufTy).Contents (Elt F) → (⟨S32768, .i32⟩ : BufTy).Contents (Elt F)),
    binary main_v0 main_v18 main_v19 (cmpi .slt : (⟨S32768, .i32⟩ : BufTy).Contents (Elt F) → (⟨S32768, .i32⟩ : BufTy).Contents (Elt F) → (⟨S32768, .i1⟩ : BufTy).Contents (Elt F)),
    nullary main_c_4 (constantI S_ 32 32768#32),
    unary main_c_4 main_v20 (broadcastInDim S32768 ![] bcast_S_S32768 : (⟨S_, .i32⟩ : BufTy).Contents (Elt F) → (⟨S32768, .i32⟩ : BufTy).Contents (Elt F)),
    binary main_v0 main_v20 main_v21 (addi : (⟨S32768, .i32⟩ : BufTy).Contents (Elt F) → (⟨S32768, .i32⟩ : BufTy).Contents (Elt F) → (⟨S32768, .i32⟩ : BufTy).Contents (Elt F)),
    ternary main_v19 main_v21 main_v0 main_v22 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    nullary main_c_5 (constantI S_ 32 0#32),
    unary main_c_5 main_v23 (broadcastInDim S32768 ![] bcast_S_S32768 : (⟨S_, .i32⟩ : BufTy).Contents (Elt F) → (⟨S32768, .i32⟩ : BufTy).Contents (Elt F)),
    binary main_arg2 main_v23 main_v24 (cmpi .slt : (⟨S32768, .i32⟩ : BufTy).Contents (Elt F) → (⟨S32768, .i32⟩ : BufTy).Contents (Elt F) → (⟨S32768, .i1⟩ : BufTy).Contents (Elt F)),
    nullary main_c_6 (constantI S_ 32 1000#32),
    unary main_c_6 main_v25 (broadcastInDim S32768 ![] bcast_S_S32768 : (⟨S_, .i32⟩ : BufTy).Contents (Elt F) → (⟨S32768, .i32⟩ : BufTy).Contents (Elt F)),
    binary main_arg2 main_v25 main_v26 (addi : (⟨S32768, .i32⟩ : BufTy).Contents (Elt F) → (⟨S32768, .i32⟩ : BufTy).Contents (Elt F) → (⟨S32768, .i32⟩ : BufTy).Contents (Elt F)),
    ternary main_v24 main_v26 main_arg2 main_v27 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v22 main_v28 (broadcastInDim S32768x1 ![0] bcast_S32768_S32768x1_0 : (⟨S32768, .i32⟩ : BufTy).Contents (Elt F) → (⟨S32768x1, .i32⟩ : BufTy).Contents (Elt F)),
    unary main_v27 main_v29 (broadcastInDim S32768x1 ![0] bcast_S32768_S32768x1_0 : (⟨S32768, .i32⟩ : BufTy).Contents (Elt F) → (⟨S32768x1, .i32⟩ : BufTy).Contents (Elt F)),
    binary main_v28 main_v29 main_v30 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    binary main_v17 main_v30 main_v31 ((fun x i => Host.gather gather_S32768x1000_S32768x2_S32768_n_01_n_n_01_1_11 x i) : (⟨S32768x1000, .f32⟩ : BufTy).Contents (Elt F) → (⟨S32768x2, .i32⟩ : BufTy).Contents (Elt F) → (⟨S32768, .f32⟩ : BufTy).Contents (Elt F)) ]

/-- Operation 55 of the reference program: the quotient. -/
def opsE : List (HloOp τ sig (Elt F)) :=
  [ binary main_v16 main_v31 main_v32 (Host.divf : (⟨S32768, .f32⟩ : BufTy).Contents (Elt F) → (⟨S32768, .f32⟩ : BufTy).Contents (Elt F) → (⟨S32768, .f32⟩ : BufTy).Contents (Elt F)) ]

/-- Operations 56–73 of the reference program, in order. -/
def opsF : List (HloOp τ sig (Elt F)) :=
  [ nullary main_c_7 (constantI S_ 32 0#32),
    unary main_c_7 main_v33 (broadcastInDim S32768 ![] bcast_S_S32768 : (⟨S_, .i32⟩ : BufTy).Contents (Elt F) → (⟨S32768, .i32⟩ : BufTy).Contents (Elt F)),
    binary main_v0 main_v33 main_v34 (cmpi .slt : (⟨S32768, .i32⟩ : BufTy).Contents (Elt F) → (⟨S32768, .i32⟩ : BufTy).Contents (Elt F) → (⟨S32768, .i1⟩ : BufTy).Contents (Elt F)),
    nullary main_c_8 (constantI S_ 32 32768#32),
    unary main_c_8 main_v35 (broadcastInDim S32768 ![] bcast_S_S32768 : (⟨S_, .i32⟩ : BufTy).Contents (Elt F) → (⟨S32768, .i32⟩ : BufTy).Contents (Elt F)),
    binary main_v0 main_v35 main_v36 (addi : (⟨S32768, .i32⟩ : BufTy).Contents (Elt F) → (⟨S32768, .i32⟩ : BufTy).Contents (Elt F) → (⟨S32768, .i32⟩ : BufTy).Contents (Elt F)),
    ternary main_v34 main_v36 main_v0 main_v37 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    nullary main_c_9 (constantI S_ 32 0#32),
    unary main_c_9 main_v38 (broadcastInDim S32768 ![] bcast_S_S32768 : (⟨S_, .i32⟩ : BufTy).Contents (Elt F) → (⟨S32768, .i32⟩ : BufTy).Contents (Elt F)),
    binary main_arg2 main_v38 main_v39 (cmpi .slt : (⟨S32768, .i32⟩ : BufTy).Contents (Elt F) → (⟨S32768, .i32⟩ : BufTy).Contents (Elt F) → (⟨S32768, .i1⟩ : BufTy).Contents (Elt F)),
    nullary main_c_10 (constantI S_ 32 1000#32),
    unary main_c_10 main_v40 (broadcastInDim S32768 ![] bcast_S_S32768 : (⟨S_, .i32⟩ : BufTy).Contents (Elt F) → (⟨S32768, .i32⟩ : BufTy).Contents (Elt F)),
    binary main_arg2 main_v40 main_v41 (addi : (⟨S32768, .i32⟩ : BufTy).Contents (Elt F) → (⟨S32768, .i32⟩ : BufTy).Contents (Elt F) → (⟨S32768, .i32⟩ : BufTy).Contents (Elt F)),
    ternary main_v39 main_v41 main_arg2 main_v42 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v37 main_v43 (broadcastInDim S32768x1 ![0] bcast_S32768_S32768x1_0 : (⟨S32768, .i32⟩ : BufTy).Contents (Elt F) → (⟨S32768x1, .i32⟩ : BufTy).Contents (Elt F)),
    unary main_v42 main_v44 (broadcastInDim S32768x1 ![0] bcast_S32768_S32768x1_0 : (⟨S32768, .i32⟩ : BufTy).Contents (Elt F) → (⟨S32768x1, .i32⟩ : BufTy).Contents (Elt F)),
    binary main_v43 main_v44 main_v45 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    binary main_v1 main_v45 main_v46 ((fun x i => Host.gather gather_S32768x1000_S32768x2_S32768_n_01_n_n_01_1_11 x i) : (⟨S32768x1000, .f32⟩ : BufTy).Contents (Elt F) → (⟨S32768x2, .i32⟩ : BufTy).Contents (Elt F) → (⟨S32768, .f32⟩ : BufTy).Contents (Elt F)) ]

/-- Operations 74–79 of the reference program, in order. -/
def opsG : List (HloOp τ sig (Elt F)) :=
  [ unary main_v46 main_v47 (Host.negf : (⟨S32768, .f32⟩ : BufTy).Contents (Elt F) → (⟨S32768, .f32⟩ : BufTy).Contents (Elt F)),
    binary main_v32 main_v47 main_v48 (mulf : (⟨S32768, .f32⟩ : BufTy).Contents (Elt F) → (⟨S32768, .f32⟩ : BufTy).Contents (Elt F) → (⟨S32768, .f32⟩ : BufTy).Contents (Elt F)),
    nullary main_cst (constant S_ .f32 0x00000000#32),
    binary main_v48 main_cst main_v49 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    nullary main_cst_11 (constant S_ .f32 0x47000000#32),
    binary main_v49 main_cst_11 main_v50 (Host.divf : (⟨S_, .f32⟩ : BufTy).Contents (Elt F) → (⟨S_, .f32⟩ : BufTy).Contents (Elt F) → (⟨S_, .f32⟩ : BufTy).Contents (Elt F)) ]

/-- The 79 operations are the seven stretches, in order. -/
theorem ops_eq : (ops : List (HloOp τ sig (Elt F))) = opsA ++ opsB ++ opsC ++ opsD ++ opsE ++ opsF ++ opsG := rfl

end Chunks

section Casts

variable {Val : EltTy → Type} {T : BufTy}

/-- Contents written through a typed reference and read back through it are the contents. -/
theorem ofBuf_toBuf (x : TRef sig T) (v : T.Contents Val) : x.ofBuf (x.toBuf v) = v := by
  obtain ⟨r, rfl, _, _⟩ := x; rfl

/-- Contents read through a typed reference and written back through it are the contents. -/
theorem toBuf_ofBuf (x : TRef sig T) (v : x.ref.ty.Contents Val) : x.toBuf (x.ofBuf v) = v := by
  obtain ⟨r, rfl, _, _⟩ := x; rfl

/-- A literal reference's typed reading of its own contents is the contents. -/
theorem ofBuf_arg0 (u : (main_arg0 : Ref sig .tc).ty.Contents Val) :
    (TRef.of (T := ⟨S32768x1000, .f32⟩) main_arg0).ofBuf u = u := rfl

/-- A literal reference's typed writing is the contents written. -/
theorem toBuf_v1 (v : (⟨S32768x1000, .f32⟩ : BufTy).Contents Val) :
    (TRef.of (T := ⟨S32768x1000, .f32⟩) main_v1).toBuf v = v := rfl

end Casts

/-! ## Stretch A: the row numbers, the logarithm of the softmax, its exponential -/

theorem A_v0 (W : Valuation τ sig (Elt Ideal)) :
    after (opsA (F := Ideal)) W (Proc.devRef .tc main_v0) = iotaInDim S32768 32 0 := by
  unfold opsA
  after_results

theorem A_v1 (W : Valuation τ sig (Elt Ideal)) :
    after (opsA (F := Ideal)) W (Proc.devRef .tc main_v1) = logSm refFacts (W (Proc.devRef .tc main_arg0)) := by
  unfold opsA
  after_results
  simp only [ofBuf_toBuf]
  rw [toBuf_v1, ofBuf_arg0]
  unfold logSm shifted maxB
  rfl

theorem A_v2 (W : Valuation τ sig (Elt Ideal)) :
    after (opsA (F := Ideal)) W (Proc.devRef .tc main_v2)
      = Host.exp (F := Ideal) (φ := .f32) (logSm refFacts (W (Proc.devRef .tc main_arg0))) := by
  unfold opsA
  after_results
  simp only [ofBuf_toBuf]
  rw [toBuf_v1, ofBuf_arg0]
  unfold logSm shifted maxB
  rfl

theorem A_args (W : Valuation τ sig (Elt Ideal)) :
    after (opsA (F := Ideal)) W (Proc.devRef .tc main_arg0) = W (Proc.devRef .tc main_arg0)
      ∧ after (opsA (F := Ideal)) W (Proc.devRef .tc main_arg1) = W (Proc.devRef .tc main_arg1)
      ∧ after (opsA (F := Ideal)) W (Proc.devRef .tc main_arg2) = W (Proc.devRef .tc main_arg2) := by
  refine ⟨?_, ?_, ?_⟩ <;> (unfold opsA; after_results)

/-! ## Stretch B: the (row, label) pairs and the entries of the softmax at them -/

/-- A concatenation of two columns depends only on the columns. -/
theorem concat_pair_congr (h : HostFacts) {a a' b b' : IVec SN1 32} (ha : a = a') (hb : b = b') :
    concatenate SN2 1 [⟨SN1, a⟩, ⟨SN1, b⟩] h.cat = concatenate SN2 1 [⟨SN1, a'⟩, ⟨SN1, b'⟩] h.cat := by
  subst ha hb; rfl

/-- With the row numbers in place, stretch B leaves the entries of the softmax's buffer at the (row, label) pairs. -/
theorem B_v16 (W : Valuation τ sig (Elt Ideal)) (hW0 : W (Proc.devRef .tc main_v0) = iotaInDim S32768 32 0) :
    after (opsB (F := Ideal)) W (Proc.devRef .tc main_v16) = gatherAt refFacts (W (Proc.devRef .tc main_v2)) (W (Proc.devRef .tc main_arg2)) := by
  unfold opsB
  after_results_simp
  unfold gatherAt pointIdx
  refine congrArg (Host.gather (gd refFacts) (W (Proc.devRef .tc main_v2))) (concat_pair_congr refFacts ?_ ?_)
  · after_results_simp
    rw [hW0]
    unfold wrapIdx
    rfl
  · after_results_simp
    unfold wrapIdx
    rfl

theorem B_keeps (W : Valuation τ sig (Elt Ideal)) :
    after (opsB (F := Ideal)) W (Proc.devRef .tc main_v0) = W (Proc.devRef .tc main_v0)
      ∧ after (opsB (F := Ideal)) W (Proc.devRef .tc main_v1) = W (Proc.devRef .tc main_v1)
      ∧ after (opsB (F := Ideal)) W (Proc.devRef .tc main_v2) = W (Proc.devRef .tc main_v2)
      ∧ after (opsB (F := Ideal)) W (Proc.devRef .tc main_arg0) = W (Proc.devRef .tc main_arg0)
      ∧ after (opsB (F := Ideal)) W (Proc.devRef .tc main_arg1) = W (Proc.devRef .tc main_arg1)
      ∧ after (opsB (F := Ideal)) W (Proc.devRef .tc main_arg2) = W (Proc.devRef .tc main_arg2) := by
  refine ⟨?_, ?_, ?_, ?_, ?_, ?_⟩ <;> (unfold opsB; after_results)

/-! ## Stretch C: the product with the transition matrix -/

theorem C_v17 (W : Valuation τ sig (Elt Ideal)) :
    after (opsC (F := Ideal)) W (Proc.devRef .tc main_v17)
      = Host.dotGeneral (F := Ideal) (φ₁ := .f32) (φ₂ := .f32) (dd refFacts) none (W (Proc.devRef .tc main_v2)) (W (Proc.devRef .tc main_arg1)) := by
  unfold opsC
  after_results
  rfl

theorem C_keeps (W : Valuation τ sig (Elt Ideal)) :
    after (opsC (F := Ideal)) W (Proc.devRef .tc main_v0) = W (Proc.devRef .tc main_v0)
      ∧ after (opsC (F := Ideal)) W (Proc.devRef .tc main_v1) = W (Proc.devRef .tc main_v1)
      ∧ after (opsC (F := Ideal)) W (Proc.devRef .tc main_v16) = W (Proc.devRef .tc main_v16)
      ∧ after (opsC (F := Ideal)) W (Proc.devRef .tc main_arg0) = W (Proc.devRef .tc main_arg0)
      ∧ after (opsC (F := Ideal)) W (Proc.devRef .tc main_arg1) = W (Proc.devRef .tc main_arg1)
      ∧ after (opsC (F := Ideal)) W (Proc.devRef .tc main_arg2) = W (Proc.devRef .tc main_arg2) := by
  refine ⟨?_, ?_, ?_, ?_, ?_, ?_⟩ <;> (unfold opsC; after_results)

/-! ## Stretch D: the pairs again and the entries of the product at them -/

/-- With the row numbers in place, stretch D leaves the entries of the product at the (row, label) pairs. -/
theorem D_v31 (W : Valuation τ sig (Elt Ideal)) (hW0 : W (Proc.devRef .tc main_v0) = iotaInDim S32768 32 0) :
    after (opsD (F := Ideal)) W (Proc.devRef .tc main_v31) = gatherAt refFacts (W (Proc.devRef .tc main_v17)) (W (Proc.devRef .tc main_arg2)) := by
  unfold opsD
  after_results_simp
  unfold gatherAt pointIdx
  refine congrArg (Host.gather (gd refFacts) (W (Proc.devRef .tc main_v17))) (concat_pair_congr refFacts ?_ ?_)
  · after_results_simp
    rw [hW0]
    unfold wrapIdx
    rfl
  · after_results_simp
    unfold wrapIdx
    rfl

theorem D_keeps (W : Valuation τ sig (Elt Ideal)) :
    after (opsD (F := Ideal)) W (Proc.devRef .tc main_v0) = W (Proc.devRef .tc main_v0)
      ∧ after (opsD (F := Ideal)) W (Proc.devRef .tc main_v1) = W (Proc.devRef .tc main_v1)
      ∧ after (opsD (F := Ideal)) W (Proc.devRef .tc main_v16) = W (Proc.devRef .tc main_v16)
      ∧ after (opsD (F := Ideal)) W (Proc.devRef .tc main_arg0) = W (Proc.devRef .tc main_arg0)
      ∧ after (opsD (F := Ideal)) W (Proc.devRef .tc main_arg1) = W (Proc.devRef .tc main_arg1)
      ∧ after (opsD (F := Ideal)) W (Proc.devRef .tc main_arg2) = W (Proc.devRef .tc main_arg2) := by
  refine ⟨?_, ?_, ?_, ?_, ?_, ?_⟩ <;> (unfold opsD; after_results)

/-! ## Stretch E: the quotient -/

theorem E_v32 (W : Valuation τ sig (Elt Ideal)) :
    after (opsE (F := Ideal)) W (Proc.devRef .tc main_v32)
      = Host.divf (F := Ideal) (φ := .f32) (W (Proc.devRef .tc main_v16)) (W (Proc.devRef .tc main_v31)) := by
  unfold opsE
  after_results

theorem E_keeps (W : Valuation τ sig (Elt Ideal)) :
    after (opsE (F := Ideal)) W (Proc.devRef .tc main_v0) = W (Proc.devRef .tc main_v0)
      ∧ after (opsE (F := Ideal)) W (Proc.devRef .tc main_v1) = W (Proc.devRef .tc main_v1)
      ∧ after (opsE (F := Ideal)) W (Proc.devRef .tc main_arg0) = W (Proc.devRef .tc main_arg0)
      ∧ after (opsE (F := Ideal)) W (Proc.devRef .tc main_arg1) = W (Proc.devRef .tc main_arg1)
      ∧ after (opsE (F := Ideal)) W (Proc.devRef .tc main_arg2) = W (Proc.devRef .tc main_arg2) := by
  refine ⟨?_, ?_, ?_, ?_, ?_⟩ <;> (unfold opsE; after_results)

/-! ## Stretch F: the pairs a third time and the entries of the logarithm of the softmax at them -/

/-- With the row numbers in place, stretch F leaves the entries of the logarithm of the softmax at the (row, label) pairs. -/
theorem F_v46 (W : Valuation τ sig (Elt Ideal)) (hW0 : W (Proc.devRef .tc main_v0) = iotaInDim S32768 32 0) :
    after (opsF (F := Ideal)) W (Proc.devRef .tc main_v46) = gatherAt refFacts (W (Proc.devRef .tc main_v1)) (W (Proc.devRef .tc main_arg2)) := by
  unfold opsF
  after_results_simp
  unfold gatherAt pointIdx
  refine congrArg (Host.gather (gd refFacts) (W (Proc.devRef .tc main_v1))) (concat_pair_congr refFacts ?_ ?_)
  · after_results_simp
    rw [hW0]
    unfold wrapIdx
    rfl
  · after_results_simp
    unfold wrapIdx
    rfl

theorem F_keeps (W : Valuation τ sig (Elt Ideal)) :
    after (opsF (F := Ideal)) W (Proc.devRef .tc main_v32) = W (Proc.devRef .tc main_v32)
      ∧ after (opsF (F := Ideal)) W (Proc.devRef .tc main_arg0) = W (Proc.devRef .tc main_arg0)
      ∧ after (opsF (F := Ideal)) W (Proc.devRef .tc main_arg1) = W (Proc.devRef .tc main_arg1)
      ∧ after (opsF (F := Ideal)) W (Proc.devRef .tc main_arg2) = W (Proc.devRef .tc main_arg2) := by
  refine ⟨?_, ?_, ?_, ?_⟩ <;> (unfold opsF; after_results)

/-! ## Stretch G: the negation, the product, the sum over the rows, the division by 32768.0 -/

theorem G_v50 (W : Valuation τ sig (Elt Ideal)) :
    after (opsG (F := Ideal)) W (Proc.devRef .tc main_v50)
      = Host.divf (F := Ideal) (φ := .f32)
          (Host.reduceAdd (F := Ideal) (φ := .f32)
            (mulf (F := Ideal) (φ := .f32) (W (Proc.devRef .tc main_v32)) (Host.negf (F := Ideal) (φ := .f32) (W (Proc.devRef .tc main_v46))))
            (constant (F := Ideal) S0 .f32 0x00000000#32) refFacts.red0 refFacts.hu)
          (constant (F := Ideal) S0 .f32 0x47000000#32) := by
  unfold opsG
  after_results

theorem G_keeps (W : Valuation τ sig (Elt Ideal)) :
    after (opsG (F := Ideal)) W (Proc.devRef .tc main_arg0) = W (Proc.devRef .tc main_arg0)
      ∧ after (opsG (F := Ideal)) W (Proc.devRef .tc main_arg1) = W (Proc.devRef .tc main_arg1)
      ∧ after (opsG (F := Ideal)) W (Proc.devRef .tc main_arg2) = W (Proc.devRef .tc main_arg2) := by
  refine ⟨?_, ?_, ?_⟩ <;> (unfold opsG; after_results)

/-- What the 79 operations, in order, leave in the result buffer and in the argument buffers, from any contents. -/
theorem after_ops (V : Valuation τ sig (Elt Ideal)) :
    after (ops (F := Ideal)) V (Proc.devRef .tc main_v50)
        = refLoss refFacts (V (Proc.devRef .tc main_arg0)) (V (Proc.devRef .tc main_arg1)) (V (Proc.devRef .tc main_arg2))
      ∧ after (ops (F := Ideal)) V (Proc.devRef .tc main_arg0) = V (Proc.devRef .tc main_arg0)
      ∧ after (ops (F := Ideal)) V (Proc.devRef .tc main_arg1) = V (Proc.devRef .tc main_arg1)
      ∧ after (ops (F := Ideal)) V (Proc.devRef .tc main_arg2) = V (Proc.devRef .tc main_arg2) := by
  rw [ops_eq]
  simp only [StableHlo.after_append]
  -- stretch A, from V
  obtain ⟨aa0, aa1, aa2⟩ := A_args V
  have a0 := A_v0 V
  have a1 := A_v1 V
  have a2 := A_v2 V
  generalize after (opsA (F := Ideal)) V = V1 at *
  -- stretch B, from V1
  obtain ⟨b0, b1, b2, ba0, ba1, ba2⟩ := B_keeps V1
  have b16 := B_v16 V1 a0
  rw [a2, aa2] at b16
  rw [a0] at b0; rw [a1] at b1; rw [a2] at b2; rw [aa0] at ba0; rw [aa1] at ba1; rw [aa2] at ba2
  clear a0 a1 a2 aa0 aa1 aa2
  generalize after (opsB (F := Ideal)) V1 = V2 at *
  -- stretch C, from V2
  obtain ⟨c0, c1, c16, ca0, ca1, ca2⟩ := C_keeps V2
  have c17 := C_v17 V2
  rw [b2, ba1] at c17
  rw [b0] at c0; rw [b1] at c1; rw [b16] at c16; rw [ba0] at ca0; rw [ba1] at ca1; rw [ba2] at ca2
  clear b0 b1 b2 b16 ba0 ba1 ba2
  generalize after (opsC (F := Ideal)) V2 = V3 at *
  -- stretch D, from V3
  obtain ⟨d0, d1, d16, da0, da1, da2⟩ := D_keeps V3
  have d31 := D_v31 V3 c0
  rw [c17, ca2] at d31
  rw [c0] at d0; rw [c1] at d1; rw [c16] at d16; rw [ca0] at da0; rw [ca1] at da1; rw [ca2] at da2
  clear c0 c1 c16 c17 ca0 ca1 ca2
  generalize after (opsD (F := Ideal)) V3 = V4 at *
  -- stretch E, from V4
  obtain ⟨e0, e1, ea0, ea1, ea2⟩ := E_keeps V4
  have e32 := E_v32 V4
  rw [d16, d31] at e32
  rw [d0] at e0; rw [d1] at e1; rw [da0] at ea0; rw [da1] at ea1; rw [da2] at ea2
  clear d0 d1 d16 d31 da0 da1 da2
  generalize after (opsE (F := Ideal)) V4 = V5 at *
  -- stretch F, from V5
  obtain ⟨f32, fa0, fa1, fa2⟩ := F_keeps V5
  have f46 := F_v46 V5 e0
  rw [e1, ea2] at f46
  rw [e32] at f32; rw [ea0] at fa0; rw [ea1] at fa1; rw [ea2] at fa2
  clear e0 e1 e32 ea0 ea1 ea2
  generalize after (opsF (F := Ideal)) V5 = V6 at *
  -- stretch G, from V6
  obtain ⟨ga0, ga1, ga2⟩ := G_keeps V6
  have g50 := G_v50 V6
  rw [f32, f46] at g50
  rw [fa0] at ga0; rw [fa1] at ga1; rw [fa2] at ga2
  refine ⟨?_, ga0, ga1, ga2⟩
  unfold refLoss pro2 smT
  exact g50

/-- The run, read: the result buffer at the chain of the arguments, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50)
          = refLoss refFacts (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v50).trans (after_ops (launchContents m c)).1,
      (h c main_arg0).trans (after_ops (launchContents m c)).2.1,
      (h c main_arg1).trans (after_ops (launchContents m c)).2.2.1,
      (h c main_arg2).trans (after_ops (launchContents m c)).2.2.2⟩)
    (run (F := Ideal) m ρ)

end Cert.ReferenceIdeal.RefValue

end
-- ==== Proof.HostRead.lean ====
/-
  The logarithm of the softmax of each row, and the softmax against the transition matrix, read at an entry: entry
  (i, k) of the first depends on row i of the logits only, entry (i, y) of the second on row i and column y of the
  matrix.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember
import proofs.«425515_j266287973106_3_alg».proof.Proof.HostDefs

noncomputable section

namespace Cert.Noise

open Idealize.ShloMosaic Idealize.ShloMosaic.ValueIdx

variable (h : HostFacts)

/-! ### The pointwise operations read at an index -/

section Pointwise
variable {s : Shape} (u v : s.Idx → EReal) (j : s.Idx)
private theorem sub_at : subf (F := Ideal) (φ := .f32) u v j = u j - v j := rfl
private theorem max_at : maximumf (F := Ideal) (φ := .f32) u v j = max (u j) (v j) := rfl
private theorem hostExp_at : Host.exp (F := Ideal) (φ := .f32) u j = Ideal.exp (u j) := rfl
private theorem hostLog_at : Host.log (F := Ideal) (φ := .f32) u j = Ideal.log (u j) := rfl
end Pointwise

/-! ### The two initial values -/

/-- The pattern 0xFF800000 denotes −∞, the bottom of the extended reals. -/
private theorem negInf_eq_bot : Ideal.ofBits .f32 0xFF800000#32 = (⊥ : EReal) := by
  simp [Ideal.ofBits, Ideal.ieee]

/-- The all-zero pattern denotes 0. -/
private theorem zeroBits_eq_zero : Ideal.ofBits .f32 0x00000000#32 = (0 : EReal) := by
  simp [Ideal.ofBits, Ideal.ieee]

/-- A maximum with −∞ is the other argument. -/
private theorem max_negInf (m : EReal) : max (Ideal.ofBits .f32 0xFF800000#32) m = m := by
  rw [negInf_eq_bot]; exact max_eq_right bot_le

/-- Folding `max` over a finite family from `b` gives the larger of `b` and the family's supremum. -/
private theorem fold_max_eq {ι : Type*} (S : Finset ι) (f : ι → EReal) (b : EReal) : S.fold max b f = max b (S.sup f) := by
  induction S using Finset.cons_induction with
  | empty => rw [Finset.fold_empty, Finset.sup_empty, max_eq_left bot_le]
  | cons a S ha ih => rw [Finset.fold_cons, Finset.sup_cons, ih, max_left_comm]

/-! ### The reductions over dimension 1, read at a row -/

/-- Dropping axis 1 of the logits' shape leaves one value per row. -/
private theorem reduces_rows : SNC.Reduces [1] SN := by decide

/-- Row `i` with the coordinate `k` inserted on axis 1 is the entry (i, k). -/
private theorem lift_rows (hr : SNC.Reduces [1] SN) (i : Fin 32768) (k : Fin 1000) : hr.lift (ix1 i) k = ix2 i k := by
  funext b
  match b with
  | ⟨0, _⟩ => exact Fin.ext rfl
  | ⟨1, _⟩ => exact Fin.ext rfl

/-- The reduction by maximum from the −∞ constant is, at row `i`, the supremum of the row. -/
private theorem rowMax_at (v : SNC.Idx → EReal) (h' : SNC.ReducesTo [1] SN) (hu : 0 < S0.numel) (i : Fin 32768) :
    Host.reduce (FloatOps.maximumf (F := Ideal) (φ := .f32)) v (constant (F := Ideal) S0 .f32 0xFF800000#32) h' hu (ix1 i)
      = Finset.univ.sup (fun k : Fin 1000 => v (ix2 i k)) := by
  have hr : SNC.Reduces [1] SN := reduces_rows
  rw [Host.reduce_eq_fold_single _ v _ h' hr hu]
  refine (fold_max_eq (Finset.univ : Finset (Fin (SNC.size 1))) (v ∘ hr.lift (ix1 i)) _).trans ?_
  refine (max_negInf _).trans ?_
  exact congrArg (Finset.sup Finset.univ) (funext fun k => congrArg v (lift_rows hr i k))

/-- The reduction by addition from the zero constant is, at row `i`, the sum of the row. -/
private theorem rowSum_at (v : SNC.Idx → EReal) (h' : SNC.ReducesTo [1] SN) (hu : 0 < S0.numel) (i : Fin 32768) :
    Host.reduceAdd (F := Ideal) (φ := .f32) v (constant (F := Ideal) S0 .f32 0x00000000#32) h' hu (ix1 i)
      = ∑ k : Fin 1000, v (ix2 i k) := by
  have hr : SNC.Reduces [1] SN := reduces_rows
  show Ideal.hostReduceAdd h' v (Ideal.ofBits .f32 0x00000000#32) (ix1 i) = _
  rw [Ideal.hostReduceAdd_single h' hr, zeroBits_eq_zero, zero_add]
  exact Finset.sum_congr rfl fun k _ => congrArg v (lift_rows hr i k)

/-! ### One value per row laid back along the rows -/

/-- The vector as a column: entry (i, 0) is the vector's entry i. -/
private theorem col_at {α : Type} (w : SN.Idx → α) (h1 : SN.BroadcastsInDim SN1 ![0]) (i : Fin 32768) :
    broadcastInDim SN1 ![0] h1 w (ix2 i 0) = w (ix1 i) := by
  refine broadcastInDim_apply ![0] h1 w (ix2 i 0) (ix1 i) fun a => ?_
  match a with
  | ⟨0, _⟩ => rfl

/-- The column across the 1000 columns: entry (i, k) is the column's entry (i, 0). -/
private theorem across_at {α : Type} (w : SN1.Idx → α) (h2 : SN1.BroadcastsInDim SNC ![0, 1]) (i : Fin 32768) (k : Fin 1000) :
    broadcastInDim SNC ![0, 1] h2 w (ix2 i k) = w (ix2 i 0) := by
  refine broadcastInDim_apply ![0, 1] h2 w (ix2 i k) (ix2 i 0) fun a => ?_
  match a with
  | ⟨0, _⟩ => rfl
  | ⟨1, _⟩ => rfl

/-! ### The chain -/

/-- Each entry of the row maxima laid back along the rows is the maximum of the entry's row. -/
theorem maxB_apply (x : FVec Ideal SNC .f32) (i : Fin 32768) (k : Fin 1000) :
    maxB h x (ix2 i k) = rmax (rowOfArr x i) := by
  unfold maxB
  rw [across_at, col_at, max_at, rowMax_at]
  exact max_negInf _

/-- Each entry of the shifted logits is the entry less its row's maximum. -/
theorem shifted_apply (x : FVec Ideal SNC .f32) (i : Fin 32768) (k : Fin 1000) :
    shifted h x (ix2 i k) = sh (rowOfArr x i) k := by
  unfold shifted
  rw [sub_at, maxB_apply]
  rfl

theorem logSm_apply (x : FVec Ideal SNC .f32) (i : Fin 32768) (k : Fin 1000) :
    logSm h x (ix2 i k) = lsm (rowOfArr x i) k := by
  unfold logSm
  rw [sub_at, shifted_apply, across_at, hostLog_at, col_at, rowSum_at]
  unfold lsm sumexp
  refine congrArg (fun t => sh (rowOfArr x i) k - Ideal.log t) (Finset.sum_congr rfl fun c _ => ?_)
  rw [hostExp_at, shifted_apply]

/-- The chain's product is the plain product of a [32768, 1000] array with a [1000, 1000] matrix. -/
private theorem dd_eq_plain : dd h = DotDims.plain 32768 1000 1000 := rfl

theorem smT_apply (x : FVec Ideal SNC .f32) (T : FVec Ideal SCC .f32) (i : Fin 32768) (y : Fin 1000) :
    smT h x T (ix2 i y) = wsumR (rowOfArr x i) (colOfArr T y) := by
  unfold smT
  rw [dd_eq_plain]
  refine (StackMember.dotGeneral_plain_apply none _ T i y).trans ?_
  unfold wsumR
  refine Finset.sum_congr rfl fun c _ => ?_
  rw [hostExp_at, logSm_apply]
  rfl

end Cert.Noise

end
-- ==== Proof.HostGather.lean ====
/-
  The gather at the (row, label) pairs, read at a row: with the label in range, row numbers and labels are their own
  wraps and lie inside the array, so nothing is clamped and the gather picks the entry (i, label i).
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate
import proofs.«425515_j266287973106_3_alg».proof.Proof.HostDefs

noncomputable section

namespace Cert.Noise

open Idealize.ShloMosaic Idealize.ShloMosaic.ValueIdx

variable (h : HostFacts)

/-- The gather read at a row: the operand at the pair of start words of that row, each read signed and clamped into
    its axis. -/
theorem gather_gd_apply (z : FVec Ideal SNC .f32) (idx : IVec SN2 32) (i : Fin 32768) :
    Host.gather (gd h) z idx (ix1 i)
      = z (ix2 ⟨min (idx (ix2 i (0 : Fin 2))).toInt.toNat 32767, by omega⟩
          ⟨min (idx (ix2 i (1 : Fin 2))).toInt.toNat 999, by omega⟩) := by
  unfold Host.gather
  congr 1
  funext a
  refine Fin.ext ?_
  match a with
  | ⟨0, _⟩ =>
    show (gd h).start (ix1 i) idx 0 + (gd h).batchCoord (ix1 i) 0 + (gd h).offCoord (ix1 i) 0 = _
    rw [GatherDims.batchCoord_eq_zero _ _ _ (show (0 : Fin 2) ∉ (gd h).operandBatchingDims from List.not_mem_nil),
      GatherDims.offCoord_eq_zero _ _ _ (fun hm => ((GatherDims.mem_sKept _ _).mp hm).1
        (show (0 : Fin 2) ∈ (gd h).collapsedSliceDims from List.mem_cons_self))]
    simp only [Nat.add_zero]
    unfold GatherDims.start
    rw [dif_pos (show (0 : Fin 2) ∈ (gd h).startIndexMap from List.mem_cons_self)]
    have hsi : (gd h).siIdx (ix1 i) ⟨List.idxOf (0 : Fin 2) (gd h).startIndexMap,
        List.idxOf_lt_length_iff.2 (show (0 : Fin 2) ∈ (gd h).startIndexMap from List.mem_cons_self)⟩
        = ix2 i (0 : Fin 2) := by
      funext b
      refine Fin.ext ?_
      match b with
      | ⟨0, _⟩ => rfl
      | ⟨1, _⟩ => rfl
    rw [hsi]
    rfl
  | ⟨1, _⟩ =>
    show (gd h).start (ix1 i) idx 1 + (gd h).batchCoord (ix1 i) 1 + (gd h).offCoord (ix1 i) 1 = _
    rw [GatherDims.batchCoord_eq_zero _ _ _ (show (1 : Fin 2) ∉ (gd h).operandBatchingDims from List.not_mem_nil),
      GatherDims.offCoord_eq_zero _ _ _ (fun hm => ((GatherDims.mem_sKept _ _).mp hm).1
        (show (1 : Fin 2) ∈ (gd h).collapsedSliceDims from List.mem_cons_of_mem _ List.mem_cons_self))]
    simp only [Nat.add_zero]
    unfold GatherDims.start
    rw [dif_pos (show (1 : Fin 2) ∈ (gd h).startIndexMap from List.mem_cons_of_mem _ List.mem_cons_self)]
    have hsi : (gd h).siIdx (ix1 i) ⟨List.idxOf (1 : Fin 2) (gd h).startIndexMap,
        List.idxOf_lt_length_iff.2 (show (1 : Fin 2) ∈ (gd h).startIndexMap from
          List.mem_cons_of_mem _ List.mem_cons_self)⟩
        = ix2 i (1 : Fin 2) := by
      funext b
      refine Fin.ext ?_
      match b with
      | ⟨0, _⟩ => rfl
      | ⟨1, _⟩ => rfl
    rw [hsi]
    rfl

/-- A word below 2³¹ is not negative read signed, so it is its own wrap. -/
theorem wrapIdx_apply_of_small (n : BitVec 32) (v : IVec SN 32) (j : SN.Idx) (hv : (v j).toNat < 2 ^ 31) :
    wrapIdx h n v j = v j := by
  unfold wrapIdx
  rw [select_apply]
  have hc : cmpi .slt v (broadcastInDim SN ![] h.b0 (constantI S0 32 0#32)) j = 0#1 := by
    refine eq_zero_of_ne_one ?_
    intro h1
    have h2 := (StableHlo.Predicate.slt_iff_toNat (a := v j) (b := 0#32) hv (by decide)).mp h1
    exact absurd h2 (Nat.not_lt_zero _)
  rw [hc, select_zero]

/-- Column 0 of the index pairs at row `i`: the row number as a word. -/
theorem pointIdx_col0 (tgt : IVec SN 32) (i : Fin 32768) :
    pointIdx h tgt (ix2 i (0 : Fin 2)) = BitVec.ofNat 32 i.val := by
  unfold pointIdx
  refine (concatenate_pair_apply_left (t := SN2) (s₁ := SN1) (s₂ := SN1) (1 : Fin 2) _ _ h.cat (ix2 i (0 : Fin 2)) rfl (ix2 i (0 : Fin 1))
    (fun b => by match b with | ⟨0, _⟩ => rfl | ⟨1, _⟩ => rfl)).trans ?_
  refine (broadcastInDim_apply ![0] h.b1 _ (ix2 i (0 : Fin 1)) (ix1 i)
    (fun a => by match a with | ⟨0, _⟩ => rfl)).trans ?_
  have hs : (iotaInDim SN 32 0 (ix1 i)).toNat < 2 ^ 31 := by
    show (BitVec.ofNat 32 i.val).toNat < 2 ^ 31
    rw [BitVec.toNat_ofNat]
    have := i.isLt
    have := Nat.mod_le i.val (2 ^ 32)
    omega
  rw [wrapIdx_apply_of_small h _ _ _ hs]
  rfl

/-- Column 1 of the index pairs at row `i`, for a label below 2³¹: the label word. -/
theorem pointIdx_col1 (tgt : IVec SN 32) (i : Fin 32768) (ht : (tgt (ix1 i)).toNat < 2 ^ 31) :
    pointIdx h tgt (ix2 i (1 : Fin 2)) = tgt (ix1 i) := by
  unfold pointIdx
  refine (concatenate_pair_apply_right (t := SN2) (s₁ := SN1) (s₂ := SN1) (1 : Fin 2) _ _ h.cat (ix2 i (1 : Fin 2)) rfl rfl (ix2 i (0 : Fin 1))
    (fun b hb => by
      match b, hb with
      | ⟨0, _⟩, _ => rfl
      | ⟨1, _⟩, hb => exact absurd rfl hb) rfl).trans ?_
  refine (broadcastInDim_apply ![0] h.b1 _ (ix2 i (0 : Fin 1)) (ix1 i)
    (fun a => by match a with | ⟨0, _⟩ => rfl)).trans ?_
  exact wrapIdx_apply_of_small h _ _ _ ht

theorem gatherAt_apply (z : FVec Ideal SNC .f32) (tgt : IVec SN 32) (i : Fin 32768) (hi : InRange (tgt (ix1 i))) :
    gatherAt h z tgt (ix1 i) = z (ix2 i ⟨(tgt (ix1 i)).toNat, hi⟩) := by
  unfold gatherAt
  refine (gather_gd_apply h z (pointIdx h tgt) i).trans ?_
  have hlt : (tgt (ix1 i)).toNat < 1000 := hi
  congr 1
  funext a
  refine Fin.ext ?_
  match a with
  | ⟨0, _⟩ =>
    show min (pointIdx h tgt (ix2 i (0 : Fin 2))).toInt.toNat 32767 = i.val
    rw [pointIdx_col0, StableHlo.Predicate.toInt_ofNat_small _ (by have := i.isLt; omega)]
    have := i.isLt
    omega
  | ⟨1, _⟩ =>
    show min (pointIdx h tgt (ix2 i (1 : Fin 2))).toInt.toNat 999 = (tgt (ix1 i)).toNat
    rw [pointIdx_col1 h tgt i (by omega), StableHlo.Predicate.toInt_eq_toNat_of_lt (by omega)]
    omega

end Cert.Noise

end
-- ==== Proof.HostLoss.lean ====
/-
  The whole host chain read at its one entry: the sum over the 32768 rows of the samples' losses (in the normalised
  form), divided by the constant 32768.0.
-/
import Idealize.ShloMosaic.PureOps
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value
import proofs.«425515_j266287973106_3_alg».proof.Proof.HostRead
import proofs.«425515_j266287973106_3_alg».proof.Proof.HostGather

noncomputable section

namespace Cert.Noise

open Idealize.ShloMosaic Idealize.ShloMosaic.ValueIdx

variable (h : HostFacts)

theorem pro2_apply (x : FVec Ideal SNC .f32) (T : FVec Ideal SCC .f32) (tgt : IVec SN 32) (i : Fin 32768)
    (hi : InRange (tgt (ix1 i))) :
    pro2 h x T tgt (ix1 i) = wsumR (rowOfArr x i) (colOfArr T ⟨(tgt (ix1 i)).toNat, hi⟩) := by
  unfold pro2; rw [gatherAt_apply h _ tgt i hi, smT_apply]

/-- The host's quotient, negation and exponential over the extended reals, read at an index. -/
theorem hostDivf_at {s : Shape} (a b : FVec Ideal s .f32) (j : s.Idx) :
    Host.divf (F := Ideal) (φ := .f32) a b j = Ideal.div (a j) (b j) := rfl
theorem hostNegf_at {s : Shape} (a : FVec Ideal s .f32) (j : s.Idx) :
    Host.negf (F := Ideal) (φ := .f32) a j = -(a j) := rfl
theorem hostExp_at {s : Shape} (a : FVec Ideal s .f32) (j : s.Idx) :
    Host.exp (F := Ideal) (φ := .f32) a j = Ideal.exp (a j) := rfl

/-- One sample's term of the sum: (softmax at the label / divisor) · (− log-softmax at the label), read at row i, is the
    row's loss in the normalised form. -/
theorem lossTerm_apply (x : FVec Ideal SNC .f32) (T : FVec Ideal SCC .f32) (tgt : IVec SN 32) (i : Fin 32768)
    (hi : InRange (tgt (ix1 i))) :
    mulf (F := Ideal) (φ := .f32)
        (Host.divf (F := Ideal) (φ := .f32) (gatherAt h (Host.exp (F := Ideal) (φ := .f32) (logSm h x)) tgt) (pro2 h x T tgt))
        (Host.negf (F := Ideal) (φ := .f32) (gatherAt h (logSm h x) tgt)) (ix1 i)
      = lossR (rowOfArr x i) (colOfArr T ⟨(tgt (ix1 i)).toNat, hi⟩) ⟨(tgt (ix1 i)).toNat, hi⟩ := by
  rw [mulf_apply, hostDivf_at, hostNegf_at, gatherAt_apply h _ tgt i hi, gatherAt_apply h _ tgt i hi,
    pro2_apply h x T tgt i hi, hostExp_at, logSm_apply]
  rfl

/-- The host's sum of a [32768] array down to a scalar, from the zero constant: the sum of its entries over the rows. -/
theorem reduceAdd_rows (V : FVec Ideal SN .f32) :
    Host.reduceAdd (F := Ideal) (φ := .f32) V (constant (F := Ideal) S0 .f32 0x00000000#32) h.red0 h.hu ix0
      = ∑ i : Fin 32768, V (ix1 i) := by
  show Ideal.hostReduceAdd h.red0 V (Ideal.ofBits .f32 0x00000000#32) ix0 = _
  rw [Ideal.hostReduceAdd_total h.red0 (fun b => b.elim0) V _ ix0, Ideal.ofBits_zero_f32, zero_add]
  exact Fintype.sum_equiv idxEquiv1 _ _ (fun j => by rw [eq_ix1 j]; rfl)

theorem refLoss_apply (x : FVec Ideal SNC .f32) (T : FVec Ideal SCC .f32) (tgt : IVec SN 32)
    (hr : ∀ i : Fin 32768, InRange (tgt (ix1 i))) :
    refLoss h x T tgt ix0
      = Ideal.div (∑ i : Fin 32768, lossR (rowOfArr x i) (colOfArr T ⟨(tgt (ix1 i)).toNat, hr i⟩) ⟨(tgt (ix1 i)).toNat, hr i⟩)
          (Ideal.ofBits .f32 0x47000000#32) := by
  unfold refLoss
  show Ideal.div (Host.reduceAdd (F := Ideal) (φ := .f32) _ (constant (F := Ideal) S0 .f32 0x00000000#32) h.red0 h.hu ix0)
      (Ideal.ofBits .f32 0x47000000#32) = _
  rw [reduceAdd_rows h]
  exact congrArg (fun s => Ideal.div s (Ideal.ofBits .f32 0x47000000#32))
    (Finset.sum_congr rfl fun i _ => lossTerm_apply h x T tgt i (hr i))

end Cert.Noise

end
-- ==== Proof.LibAggAlgebra.lean ====
/-
  Extended-real algebra for a neighbourhood sum over a zero-one adjacency.

  On the extended reals products do not distribute over sums at the infinities, and a sum of
  coerced reals has to be shown to be the coerced sum. Every lemma here assumes its operands are
  (coercions of) real numbers, moves the whole identity into the reals, and proves it there.
-/
import Mathlib.Data.EReal.Inv
import Mathlib.Data.EReal.Operations
import Mathlib.Algebra.BigOperators.Group.Finset.Basic
import Mathlib.Algebra.BigOperators.Ring.Finset
import Mathlib.Analysis.SpecialFunctions.Sqrt
import Mathlib.Tactic.Ring
import Mathlib.Tactic.Linarith
import Mathlib.Tactic.NormNum
import Idealize.ShloMosaic.PureOps.Ideal

noncomputable section

namespace Cert.AggAlgebra

open Idealize.ShloMosaic

/-- An extended real that is (the coercion of) a real number. -/
abbrev IsReal (x : EReal) : Prop := ∃ r : ℝ, x = (r : EReal)

variable {ι : Type*}

/-! ### Reals are closed under the operations of the network -/

theorem isReal_coe (r : ℝ) : IsReal (r : EReal) := ⟨r, rfl⟩

theorem isReal_zero : IsReal (0 : EReal) := ⟨0, rfl⟩

theorem isReal_one : IsReal (1 : EReal) := ⟨1, rfl⟩

theorem isReal_of_zero_or_one {x : EReal} (h : x = 0 ∨ x = 1) : IsReal x := by
  rcases h with rfl | rfl
  · exact isReal_zero
  · exact isReal_one

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  obtain ⟨a, rfl⟩ := hx
  obtain ⟨b, rfl⟩ := hy
  exact ⟨max a b, (EReal.coe_strictMono.monotone.map_max).symm⟩

/-- The coercion of a finite sum of reals is the sum of the coercions. -/
theorem coe_sum (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem isReal_sum (s : Finset ι) (f : ι → EReal) (hf : ∀ i ∈ s, IsReal (f i)) :
    IsReal (∑ i ∈ s, f i) := by
  classical
  induction s using Finset.induction_on with
  | empty => exact ⟨0, by simp⟩
  | insert i s hi ih =>
    rw [Finset.sum_insert hi]
    exact isReal_add (hf i (Finset.mem_insert_self i s))
      (ih fun j hj => hf j (Finset.mem_insert_of_mem hj))

/-! ### (i) The scaled neighbourhood sum factors -/

/-- With a zero-one weight `a` and real `h`, `d`, `hj`, `dj`: summing `h i * (d i * dj)` over the
    indices where `a` is not zero, and adding the self term `hj * (dj * dj)`, is the weighted sum
    `∑ a i * (h i * d i)` plus `hj * dj`, all times `dj`. -/
theorem agg_factor [Fintype ι] (a h d : ι → EReal) (hj dj : EReal)
    [inst : ∀ i, Decidable (a i ≠ 0)]
    (ha : ∀ i, a i = 0 ∨ a i = 1) (hh : ∀ i, IsReal (h i)) (hd : ∀ i, IsReal (d i))
    (hhj : IsReal hj) (hdj : IsReal dj) :
    (∑ i, if a i ≠ 0 then h i * (d i * dj) else 0) + hj * (dj * dj)
      = ((∑ i, a i * (h i * d i)) + hj * dj) * dj := by
  choose hr hhr using hh
  choose dr hdr using hd
  obtain ⟨hjr, rfl⟩ := hhj
  obtain ⟨djr, rfl⟩ := hdj
  -- every summand on either side is the coercion of a real summand
  have hL : ∀ i, (if a i ≠ 0 then h i * (d i * (djr : EReal)) else 0)
      = ((if a i ≠ 0 then hr i * (dr i * djr) else 0 : ℝ) : EReal) := by
    intro i
    split_ifs
    · rw [hhr i, hdr i, ← EReal.coe_mul, ← EReal.coe_mul]
    · rfl
  have hR : ∀ i, a i * (h i * d i) = ((if a i ≠ 0 then hr i * dr i else 0 : ℝ) : EReal) := by
    intro i
    rcases ha i with h0 | h1
    · rw [if_neg (by simp [h0]), h0, zero_mul]; rfl
    · rw [if_pos (by simp [h1]), h1, one_mul, hhr i, hdr i, ← EReal.coe_mul]
  rw [Finset.sum_congr rfl (fun i _ => hL i), Finset.sum_congr rfl (fun i _ => hR i),
    ← coe_sum, ← coe_sum, ← EReal.coe_mul, ← EReal.coe_mul, ← EReal.coe_mul, ← EReal.coe_add,
    ← EReal.coe_add, ← EReal.coe_mul]
  congr 1
  -- the identity in the reals: distribute the last factor over the sum
  rw [add_mul, Finset.sum_mul]
  congr 1
  · refine Finset.sum_congr rfl fun i _ => ?_
    split_ifs <;> ring
  · ring

/-! ### (ii) The degree: a count, a real at least one, and its inverse square root -/

/-- Counting the indices where a zero-one weight is not zero is summing the weight. -/
theorem count_eq_sum [Fintype ι] (a : ι → EReal) [inst : ∀ i, Decidable (a i ≠ 0)]
    (ha : ∀ i, a i = 0 ∨ a i = 1) :
    (∑ i, if a i ≠ 0 then (1 : EReal) else 0) + 1 = (∑ i, a i) + 1 := by
  congr 1
  refine Finset.sum_congr rfl fun i _ => ?_
  rcases ha i with h0 | h1
  · rw [if_neg (by simp [h0]), h0]
  · rw [if_pos (by simp [h1]), h1]

/-- The sum of a zero-one weight, plus one, is a real number at least one. -/
theorem sum_add_one_real [Fintype ι] (a : ι → EReal) (ha : ∀ i, a i = 0 ∨ a i = 1) :
    ∃ r : ℝ, 1 ≤ r ∧ (∑ i, a i) + 1 = (r : EReal) := by
  classical
  -- the weight as a real zero-one function
  have hcoe : ∀ i, a i = ((if a i ≠ 0 then 1 else 0 : ℝ) : EReal) := by
    intro i
    rcases ha i with h0 | h1
    · rw [if_neg (by simp [h0]), h0]; rfl
    · rw [if_pos (by simp [h1]), h1]; rfl
  refine ⟨(∑ i, (if a i ≠ 0 then 1 else 0 : ℝ)) + 1, ?_, ?_⟩
  · have h0 : 0 ≤ ∑ i, (if a i ≠ 0 then (1 : ℝ) else 0) :=
      Finset.sum_nonneg fun i _ => by split_ifs <;> norm_num
    linarith
  · rw [EReal.coe_add, coe_sum, EReal.coe_one]
    congr 1
    exact Finset.sum_congr rfl fun i _ => hcoe i

/-- One over the square root is the inverse square root, at a positive real. -/
theorem div_one_sqrt (r : ℝ) (hr : 0 < r) :
    Ideal.div 1 (Ideal.sqrt (r : EReal)) = Ideal.rsqrt (r : EReal) := by
  have hs : 0 < Real.sqrt r := Real.sqrt_pos.mpr hr
  have hs0 : ((Real.sqrt r : ℝ) : EReal) ≠ 0 := by exact_mod_cast hs.ne'
  rw [Ideal.sqrt_coe, Ideal.rsqrt_coe, if_neg (not_lt.mpr hr.le), if_neg (not_lt.mpr hr.le),
    if_neg hr.ne', Ideal.div, if_neg hs0, one_mul, EReal.coe_inv]

/-- The inverse square root of a positive real is a positive real. -/
theorem rsqrt_pos_real (r : ℝ) (hr : 0 < r) :
    ∃ s : ℝ, 0 < s ∧ Ideal.rsqrt (r : EReal) = (s : EReal) := by
  have hs : 0 < Real.sqrt r := Real.sqrt_pos.mpr hr
  refine ⟨(Real.sqrt r)⁻¹, inv_pos.mpr hs, ?_⟩
  rw [Ideal.rsqrt_coe, if_neg (not_lt.mpr hr.le), if_neg hr.ne']

/-- A positive real compares greater than zero. -/
theorem cmp_ogt_zero (r : ℝ) (hr : 0 < r) : Ideal.cmp .ogt (r : EReal) 0 = 1#1 := by
  have h : (0 : EReal) < (r : EReal) := EReal.coe_pos.mpr hr
  simp [Ideal.cmp, h]

end Cert.AggAlgebra

end
-- ==== Proof.PreDecode.lean ====
/-
  What the precondition says of the argument arrays: every logit and every entry of the transition matrix is a real
  number, every label names one of the 1000 classes, and for every row the softmax against the transition matrix, at
  the row's label — the divisor of the row's loss — is not zero.
-/
import proofs.«425515_j266287973106_3_alg».proof.Pre_finite_inputs
import Idealize.ShloMosaic.Lib.ReduceAll
import Idealize.ShloMosaic.Lib.StableHlo.Predicate
import Idealize.ShloMosaic.Lib.ValueIdx
import proofs.«425515_j266287973106_3_alg».proof.Proof.HostDefs
import proofs.«425515_j266287973106_3_alg».proof.Proof.LibAggAlgebra

noncomputable section

namespace Cert.Noise

open Idealize.ShloMosaic Idealize.ShloMosaic.ValueIdx Cert.AggAlgebra

/-- The precondition's shape relations are the chain's. -/
theorem preFacts [hF : Cert.Pre_finite_inputs.Facts] : HostFacts where
  red := hF.reducesTo_S32768x1000_S32768_d1
  hu := hF.h_S_
  b0 := hF.bcast_S_S32768
  b1 := hF.bcast_S32768_S32768x1_0
  b2 := hF.bcast_S32768x1_S32768x1000_0_1
  cat := hF.concatenates_S32768x1_S32768x1_S32768x2_d1
  gwf := hF.gather_S32768x1000_S32768x2_S32768_n_01_n_n_01_1_11_wf
  dwf := hF.dot_S32768x1000_S1000x1000_S32768x1000_1_0_0_1_n_n_wf
  red0 := hF.reducesTo_S32768_S_d0

/-! ## The three kinds of test, each read at one element -/

/-- A one-bit word made from a truth value is 1 exactly when the value is true. -/
private theorem ofBool_one (b : Bool) : BitVec.ofBool b = 1#1 ↔ b = true := by cases b <;> decide

/-- The pattern 0x7F800000 denotes +∞. -/
private theorem ofBits_posInf : Ideal.ofBits .f32 0x7F800000#32 = (⊤ : EReal) := by simp [Ideal.ofBits, Ideal.ieee]

/-- FINITE: an extended real whose absolute value max a (−a) compares below +∞ is a real number (it is neither
    infinity, since max ⊤ (−⊤) = ⊤ and max ⊥ (−⊥) = ⊤). -/
private theorem isReal_of_abs_lt_inf (a : EReal)
    (h : Ideal.cmp .olt (max a (-a)) (Ideal.ofBits .f32 0x7F800000#32) = 1#1) : IsReal a := by
  rw [ofBits_posInf] at h
  have hlt : max a (-a) < ⊤ := by
    simpa only [Ideal.cmp, ofBool_one, decide_eq_true_eq] using h
  induction a using EReal.rec with
  | bot => exact absurd hlt (by simp)
  | top => exact absurd hlt (by simp)
  | coe r => exact ⟨r, rfl⟩

/-- IN RANGE: a word that is at least 0 and below 1000, both read signed, has a value below 1000. -/
private theorem inRange_of_signed (w : BitVec 32) (h1 : IntOp.cmpi .sge w 0#32 = 1#1)
    (h2 : IntOp.cmpi .slt w 1000#32 = 1#1) : InRange w := by
  rw [IntOp.cmpi_sge] at h1
  rw [IntOp.cmpi_slt] at h2
  have e0 : (0#32 : BitVec 32).toInt = 0 := by decide
  have e1 : (1000#32 : BitVec 32).toInt = 1000 := by decide
  rw [e0] at h1
  rw [e1] at h2
  have hc := BitVec.toInt_eq_toNat_cond w
  unfold InRange
  split at hc <;> omega

/-- NOT ZERO: an extended real that compares unequal to the pattern of 0 is not zero. -/
private theorem ne_zero_of_une (a : EReal) (h : Ideal.cmp .une a (Ideal.ofBits .f32 0x00000000#32) = 1#1) : a ≠ 0 := by
  rw [Ideal.ofBits_zero_f32] at h
  simpa only [Ideal.cmp, ofBool_one, decide_eq_true_eq] using h

/-! The same three, read at an index of the arrays the precondition compares: the comparison, the absolute value and
    the broadcast of a single value all read through to the element. -/

private theorem isReal_of_abs_lt_inf_at {s : Shape} (hb : S0.BroadcastsInDim s (![] : Fin 0 → Fin s.rank))
    (v : FVec Ideal s .f32) (j : s.Idx)
    (h : cmpf (F := Ideal) (φ := .f32) .olt (Host.absf (F := Ideal) (φ := .f32) v)
      (broadcastInDim s ![] hb (constant (F := Ideal) S0 .f32 0x7F800000#32)) j = 1#1) : IsReal (v j) :=
  isReal_of_abs_lt_inf (v j) h

private theorem inRange_of_signed_at {s : Shape} (hb : S0.BroadcastsInDim s (![] : Fin 0 → Fin s.rank))
    (v : IVec s 32) (j : s.Idx)
    (h1 : cmpi .sge v (broadcastInDim s ![] hb (constantI S0 32 0#32)) j = 1#1)
    (h2 : cmpi .slt v (broadcastInDim s ![] hb (constantI S0 32 1000#32)) j = 1#1) : InRange (v j) :=
  inRange_of_signed (v j) h1 h2

private theorem ne_zero_of_une_at {s : Shape} (hb : S0.BroadcastsInDim s (![] : Fin 0 → Fin s.rank))
    (v : FVec Ideal s .f32) (j : s.Idx)
    (h : cmpf (F := Ideal) (φ := .f32) .une v
      (broadcastInDim s ![] hb (constant (F := Ideal) S0 .f32 0x00000000#32)) j = 1#1) : v j ≠ 0 :=
  ne_zero_of_une (v j) h

/-- A conjunction of two one-bit arrays that is 1 at an index has both bits 1 there. -/
private theorem andi_at_eq_one {s : Shape} (a b : IVec s 1) (j : s.Idx) (h : andi a b j = 1#1) :
    a j = 1#1 ∧ b j = 1#1 :=
  IntOp.andi_eq_one.1 h

/-! ## The precondition is the conjunction of the four tests -/

/-- The precondition with its intermediate names put in place: the conjunction of "every |x| is below +∞", "every |T|
    is below +∞", "every label is at least 0 and below 1000" and "every row's divisor is not 0", the divisors being the
    chain `pro2` (the same operations in the same order, so the two sides agree by definition). -/
private theorem fn_eq_tests [hF : Cert.Pre_finite_inputs.Facts] (x : FVec Ideal SNC .f32) (T : FVec Ideal SCC .f32)
    (tgt : IVec SN 32) :
    Cert.Pre_finite_inputs.fn (F := Ideal) x T tgt
      = andi (andi (andi
          (Host.reduce IntOp.andi
            (cmpf (F := Ideal) (φ := .f32) .olt (Host.absf (F := Ideal) (φ := .f32) x)
              (broadcastInDim SNC ![] hF.bcast_S_S32768x1000 (constant (F := Ideal) S0 .f32 0x7F800000#32)))
            (constantI S0 1 1#1) hF.reducesTo_S32768x1000_S_d0_1 hF.h_S_)
          (Host.reduce IntOp.andi
            (cmpf (F := Ideal) (φ := .f32) .olt (Host.absf (F := Ideal) (φ := .f32) T)
              (broadcastInDim SCC ![] hF.bcast_S_S1000x1000 (constant (F := Ideal) S0 .f32 0x7F800000#32)))
            (constantI S0 1 1#1) hF.reducesTo_S1000x1000_S_d0_1 hF.h_S_))
          (Host.reduce IntOp.andi
            (andi (cmpi .sge tgt (broadcastInDim SN ![] hF.bcast_S_S32768 (constantI S0 32 0#32)))
              (cmpi .slt tgt (broadcastInDim SN ![] hF.bcast_S_S32768 (constantI S0 32 1000#32))))
            (constantI S0 1 1#1) hF.reducesTo_S32768_S_d0 hF.h_S_))
          (Host.reduce IntOp.andi
            (cmpf (F := Ideal) (φ := .f32) .une (pro2 preFacts x T tgt)
              (broadcastInDim SN ![] hF.bcast_S_S32768 (constant (F := Ideal) S0 .f32 0x00000000#32)))
            (constantI S0 1 1#1) hF.reducesTo_S32768_S_d0 hF.h_S_) := rfl

theorem pre_decode [Cert.Pre_finite_inputs.Facts] (x : FVec Ideal SNC .f32) (T : FVec Ideal SCC .f32) (tgt : IVec SN 32)
    (hp : Cert.Pre_finite_inputs.fn (F := Ideal) x T tgt = fun _ => 1#1) :
    (∀ j, IsReal (x j)) ∧ (∀ j, IsReal (T j)) ∧ (∀ i : Fin 32768, InRange (tgt (ix1 i)))
      ∧ (∀ i : Fin 32768, pro2 preFacts x T tgt (ix1 i) ≠ 0) := by
  -- the single value is the conjunction of the four tests; each test is a conjunction over all indices
  haveI : Subsingleton S0.Idx := ⟨fun _ _ => funext fun d => d.elim0⟩
  have h0 := congrFun hp ix0
  rw [fn_eq_tests] at h0
  obtain ⟨h123, h4⟩ := andi_at_eq_one _ _ _ h0
  obtain ⟨h12, h3⟩ := andi_at_eq_one _ _ _ h123
  obtain ⟨h1, h2⟩ := andi_at_eq_one _ _ _ h12
  refine ⟨fun j => ?_, fun j => ?_, fun i => ?_, fun i => ?_⟩
  · exact isReal_of_abs_lt_inf_at _ x j (Host.reduce_andi_all _ _ _ _ _ h1 j)
  · exact isReal_of_abs_lt_inf_at _ T j (Host.reduce_andi_all _ _ _ _ _ h2 j)
  · obtain ⟨ha, hb⟩ := andi_at_eq_one _ _ _ (Host.reduce_andi_all _ _ _ _ _ h3 (ix1 i))
    exact inRange_of_signed_at _ tgt (ix1 i) ha hb
  · exact ne_zero_of_une_at _ (pro2 preFacts x T tgt) (ix1 i) (Host.reduce_andi_all _ _ _ _ _ h4 (ix1 i))

end Cert.Noise

end
-- ==== Proof.RowAlgebra.lean ====
/-
  The loss of one sample, as a function of its row of 1000 logits, one column of the transition matrix and its label,
  over the extended reals; and the regrouping of a sum over 32768 rows into 2 × 32 tiles of 512 rows.

  With m the row's maximum, s_k = x_k − m the shifted logits, S = Σ_k exp s_k and P = Σ_k exp s_k · t_k, one side
  computes (exp s_y / P) · (log S − s_y); the other side first normalises, l_k = s_k − log S, and computes
  (exp l_y / Σ_k exp l_k · t_k) · (−l_y). When every entry is a real number and P ≠ 0 the factor 1/S cancels
  in the quotient and the two are equal.
-/
import proofs.«425515_j266287973106_3_alg».proof.Proof.LibAggAlgebra
import proofs.«425515_j266287973106_3_alg».proof.Proof.RowDefs
import Mathlib.Analysis.SpecialFunctions.Log.Basic
import Mathlib.Analysis.SpecialFunctions.Exp
import Mathlib.Tactic.FieldSimp
import Mathlib.Logic.Equiv.Fin.Basic
import Mathlib.Algebra.BigOperators.Fin
import Mathlib.Data.Fintype.BigOperators
import Mathlib.Tactic.Ring

noncomputable section

namespace Cert.Noise

open Idealize.ShloMosaic Cert.AggAlgebra

/-- The maximum of a row of reals is attained, so it is a real. -/
theorem isReal_rmax (r : Row) (hr : ∀ k, IsReal (r k)) : IsReal (rmax r) := by
  obtain ⟨k, -, hk⟩ :=
    Finset.exists_mem_eq_sup (Finset.univ : Finset (Fin 1000)) ⟨0, Finset.mem_univ _⟩ r
  unfold rmax
  rw [hk]
  exact hr k

/-- On a real row and column every quantity of the two losses is the coercion of a real: with
    s_k the shifted entries, S = Σ_k exp s_k > 0 and P = Σ_k exp s_k · t_k, the normalised
    entries are s_k − log S, their exponentials exp s_k / S, and the normalised weighted sum P / S. -/
theorem real_forms (r col : Row) (hr : ∀ k, IsReal (r k)) (hc : ∀ k, IsReal (col k)) :
    ∃ (s : Fin 1000 → ℝ) (S P : ℝ), 0 < S ∧
      (∀ k, sh r k = ((s k : ℝ) : EReal)) ∧
      Ideal.log (sumexp r) = ((Real.log S : ℝ) : EReal) ∧
      wsum r col = ((P : ℝ) : EReal) ∧
      (∀ k, lsm r k = ((s k - Real.log S : ℝ) : EReal)) ∧
      (∀ k, Ideal.exp (lsm r k) = ((Real.exp (s k) / S : ℝ) : EReal)) ∧
      wsumR r col = ((P / S : ℝ) : EReal) := by
  choose a ha using hr
  choose t ht using hc
  obtain ⟨m, hm⟩ := isReal_rmax r (fun k => ⟨a k, ha k⟩)
  -- the shifted entries and their exponentials
  have hsh : ∀ k, sh r k = ((a k - m : ℝ) : EReal) := by
    intro k
    unfold sh
    rw [ha k, hm, EReal.coe_sub]
  have hexp : ∀ k, Ideal.exp (sh r k) = ((Real.exp (a k - m) : ℝ) : EReal) := by
    intro k
    rw [hsh k, Ideal.exp_coe]
  -- their sum is a positive real
  have hSpos : 0 < ∑ k : Fin 1000, Real.exp (a k - m) :=
    Finset.sum_pos (fun k _ => Real.exp_pos _) ⟨0, Finset.mem_univ _⟩
  have hS : sumexp r = ((∑ k : Fin 1000, Real.exp (a k - m) : ℝ) : EReal) := by
    unfold sumexp
    rw [coe_sum]
    exact Finset.sum_congr rfl fun k _ => hexp k
  have hlog : Ideal.log (sumexp r)
      = ((Real.log (∑ k : Fin 1000, Real.exp (a k - m)) : ℝ) : EReal) := by
    rw [hS, Ideal.log_coe, if_neg (not_le.mpr hSpos)]
  have hP : wsum r col = ((∑ k : Fin 1000, Real.exp (a k - m) * t k : ℝ) : EReal) := by
    unfold wsum
    rw [coe_sum]
    refine Finset.sum_congr rfl fun k _ => ?_
    rw [hexp k, ht k, EReal.coe_mul]
  -- the normalised entries
  have hlsm : ∀ k, lsm r k
      = ((a k - m - Real.log (∑ k : Fin 1000, Real.exp (a k - m)) : ℝ) : EReal) := by
    intro k
    unfold lsm
    rw [hsh k, hlog, ← EReal.coe_sub]
  have hexpl : ∀ k, Ideal.exp (lsm r k)
      = ((Real.exp (a k - m) / (∑ k : Fin 1000, Real.exp (a k - m)) : ℝ) : EReal) := by
    intro k
    rw [hlsm k, Ideal.exp_coe, Real.exp_sub, Real.exp_log hSpos]
  have hPR : wsumR r col
      = (((∑ k : Fin 1000, Real.exp (a k - m) * t k)
          / (∑ k : Fin 1000, Real.exp (a k - m)) : ℝ) : EReal) := by
    unfold wsumR
    rw [Finset.sum_div, coe_sum]
    refine Finset.sum_congr rfl fun k _ => ?_
    rw [hexpl k, ht k, ← EReal.coe_mul]
    congr 1
    ring
  exact ⟨fun k => a k - m, _, _, hSpos, hsh, hlog, hP, hlsm, hexpl, hPR⟩

/-- If the normalised weighted sum is not zero, neither is the unnormalised one (they differ by the factor 1/S). -/
theorem wsum_ne_zero (r col : Row) (hr : ∀ k, IsReal (r k)) (hc : ∀ k, IsReal (col k)) (h : wsumR r col ≠ 0) :
    wsum r col ≠ 0 := by
  obtain ⟨s, S, P, hS, hsh, hlog, hP, hlsm, hexpl, hPR⟩ := real_forms r col hr hc
  rw [hPR] at h
  rw [hP]
  intro hP0
  apply h
  rw [EReal.coe_eq_zero] at hP0
  rw [hP0, zero_div, EReal.coe_zero]

/-- The two forms of the sample's loss agree on real rows and columns with a nonzero weighted sum. -/
theorem lossR_eq_lossK (r col : Row) (y : Fin 1000) (hr : ∀ k, IsReal (r k)) (hc : ∀ k, IsReal (col k))
    (h : wsumR r col ≠ 0) : lossR r col y = lossK r col y := by
  obtain ⟨s, S, P, hS, hsh, hlog, hP, hlsm, hexpl, hPR⟩ := real_forms r col hr hc
  have hS0 : S ≠ 0 := hS.ne'
  have hPS : P / S ≠ 0 := by
    intro h0
    apply h
    rw [hPR, h0, EReal.coe_zero]
  have hP0 : P ≠ 0 := by
    intro h0
    apply hPS
    rw [h0, zero_div]
  unfold lossR lossK
  rw [hexpl y, hPR, hlsm y, hP, hlog, hsh y, Ideal.exp_coe, Ideal.div_coe hPS, Ideal.div_coe hP0,
    ← EReal.coe_neg, ← EReal.coe_sub, ← EReal.coe_mul, ← EReal.coe_mul, ← EReal.coe_mul,
    ← EReal.coe_mul]
  congr 1
  -- the identity in the reals: the factor 1/S cancels
  field_simp
  ring

/-- The rows as pairs (tile, row in the tile), tiles as pairs (half, tile in the half):
    i = (c · 32 + j) · 512 + q, with c = i / 16384, j = i / 512 mod 32, q = i mod 512. -/
def tileEquiv : (Fin 2 × Fin 32) × Fin 512 ≃ Fin 32768 where
  toFun x := rowOf x.1.1 x.1.2 x.2
  invFun i :=
    ((⟨i.val / 16384, by have := i.isLt; omega⟩, ⟨i.val / 512 % 32, by omega⟩),
      ⟨i.val % 512, by omega⟩)
  left_inv := by
    rintro ⟨⟨c, j⟩, q⟩
    have := c.isLt
    have := j.isLt
    have := q.isLt
    refine Prod.ext (Prod.ext (Fin.ext ?_) (Fin.ext ?_)) (Fin.ext ?_) <;>
      simp only [rowOf] <;> omega
  right_inv := by
    intro i
    have := i.isLt
    refine Fin.ext ?_
    simp only [rowOf]
    omega

/-- A sum over the 32768 rows is the sum over the two halves of the sums over their 32 tiles of 512 rows. -/
theorem sum_tiles (f : Fin 32768 → EReal) :
    ∑ i, f i = ∑ c : Fin 2, ∑ j : Fin 32, ∑ q : Fin 512, f (rowOf c j q) := by
  rw [← tileEquiv.sum_comp f, Fintype.sum_prod_type, Fintype.sum_prod_type]
  rfl

end Cert.Noise

end
-- ==== Proof.Bridge.lean ====
/-
  The two programs' results are one number.

  The precondition makes every logit and every entry of the transition matrix a real number, every label a class,
  and every row's divisor nonzero. Then each row's loss in the reference's normalised form equals its loss in the
  kernel's form (the factor 1/S cancels in the quotient), and the sum over the 32768 rows, regrouped by half and
  tile, is the sum the kernel accumulates. Both programs divide it by the same constant.
-/
import proofs.«425515_j266287973106_3_alg».proof.Defs
import proofs.«425515_j266287973106_3_alg».proof.Proof.KernelFold
import proofs.«425515_j266287973106_3_alg».proof.Proof.HostLoss
import proofs.«425515_j266287973106_3_alg».proof.Proof.PreDecode
import proofs.«425515_j266287973106_3_alg».proof.Proof.RowAlgebra

set_option maxRecDepth 16384

noncomputable section

namespace Cert.Bridge

open Cert.KernelIdeal Cert.KernelIdeal.Blocks Cert.KernelIdeal.Fold Cert.Noise Cert.AggAlgebra
open Idealize.ShloMosaic Idealize.ShloMosaic.TcCoe Idealize.ShloMosaic.ValueIdx
open Idealize.SL Idealize.SL.Sem

variable [Cert.Pre_finite_inputs.Facts] {m : (ℓ : Loc nD τ sig) → Buf (Elt Ideal) ℓ}

/-- What the precondition says of device `c`'s argument arrays. -/
structure Decoded (m : (ℓ : Loc nD τ sig) → Buf (Elt Ideal) ℓ) (c : Dev nD) : Prop where
  rx : ∀ j, IsReal (arr0 m c j)
  rT : ∀ j, IsReal (arr1 m c j)
  hr : ∀ i : Fin 32768, InRange (arr2 m c (ix1 i))
  hp : ∀ i : Fin 32768, wsumR (rowOfArr (arr0 m c) i) (colOfArr (arr1 m c) ⟨(arr2 m c (ix1 i)).toNat, hr i⟩) ≠ 0

theorem decoded_of_pre (hpre : Cert.Pre_KernelIdeal m) (c : Dev nD) : Decoded m c := by
  obtain ⟨h1, h2, h3, h4⟩ := pre_decode (arr0 m c) (arr1 m c) (arr2 m c) (hpre c)
  exact ⟨h1, h2, h3, fun i => by rw [← pro2_apply preFacts _ _ _ i (h3 i)]; exact h4 i⟩

/-- The divisor in the kernel's form is nonzero too. -/
theorem ok_of_decoded {c : Dev nD} (d : Decoded m c) : Ok m c :=
  ⟨d.hr, fun i => wsum_ne_zero _ _ (fun k => d.rx _) (fun k => d.rT _) (d.hp i)⟩

/-- The reference's chain of the arguments is the kernel's mean loss. -/
theorem loss_eq (h : HostFacts) {c : Dev nD} (d : Decoded m c) :
    refLoss h (arr0 m c) (arr1 m c) (arr2 m c) = fun _ => kernelLoss (ok_of_decoded d) := by
  funext j
  obtain rfl : j = ix0 := eq_ix0 j
  refine (refLoss_apply h (arr0 m c) (arr1 m c) (arr2 m c) d.hr).trans ?_
  unfold kernelLoss
  refine congrArg (fun s => Ideal.div s (Ideal.ofBits .f32 0x47000000#32)) ?_
  have h1 : ∀ i : Fin 32768,
      lossR (rowOfArr (arr0 m c) i) (colOfArr (arr1 m c) ⟨(arr2 m c (ix1 i)).toNat, d.hr i⟩) ⟨(arr2 m c (ix1 i)).toNat, d.hr i⟩
        = rowLoss (ok_of_decoded d) i := fun i =>
    lossR_eq_lossK _ _ _ (fun k => d.rx _) (fun k => d.rT _) (d.hp i)
  refine (Finset.sum_congr rfl fun i _ => h1 i).trans ?_
  refine (sum_tiles (rowLoss (ok_of_decoded d))).trans ?_
  refine Finset.sum_congr rfl fun c' _ => ?_
  refine Eq.trans ?_ (Finset.sum_range (fun j => tileLoss (ok_of_decoded d) (c'.val * 32 + j))).symm
  refine Finset.sum_congr rfl fun j _ => ?_
  unfold tileLoss
  rw [dif_pos (show c'.val * 32 + j.val < 64 by have := c'.isLt; have := j.isLt; omega)]
  rfl

end Cert.Bridge

end
-- ==== Proof.lean ====
/-
  The certificate: the kernel program and its idealization run and leave their arguments unchanged (the generated
  frames); the reference runs (its operations in order); the idealization rewrote nothing; and over the extended reals,
  under the precondition, the kernel's result — the two halves' accumulated losses added and divided by 32768.0 — is
  the reference's mean loss (Bridge.lean).
-/
import proofs.«425515_j266287973106_3_alg».proof.Defs
import proofs.«425515_j266287973106_3_alg».proof.Proof.Gen.Kernel
import proofs.«425515_j266287973106_3_alg».proof.Proof.Gen.Kernel.Frame
import proofs.«425515_j266287973106_3_alg».proof.Proof.Gen.KernelIdeal
import proofs.«425515_j266287973106_3_alg».proof.Proof.Gen.KernelIdeal.Frame
import proofs.«425515_j266287973106_3_alg».proof.Proof.Gen.ReferenceIdeal
import proofs.«425515_j266287973106_3_alg».proof.Proof.Gen.Pre_finite_inputs
import proofs.«425515_j266287973106_3_alg».proof.Proof.KernelFold
import proofs.«425515_j266287973106_3_alg».proof.Proof.RefValue
import proofs.«425515_j266287973106_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run_value m ρ)

theorem preserves : Cert.preserves_Kernel_KernelIdeal := trivial

theorem algebraic : Cert.algebraic_KernelIdeal_ReferenceIdeal := by
  intro m ρ m' ρ' hpre hagree
  have dec := fun c => Cert.Bridge.decoded_of_pre hpre c
  refine ⟨fun c => (fun _ => Cert.KernelIdeal.Fold.kernelLoss (Cert.Bridge.ok_of_decoded (dec c))),
    Cert.KernelIdeal.Fold.run_value m ρ (fun c => Cert.Bridge.ok_of_decoded (dec c)), ?_⟩
  refine (θ_run Cert.ReferenceIdeal.defs _ _).mono (fun _ h c => ⟨(h c).1.trans ?_, (h c).2⟩)
    (Cert.ReferenceIdeal.RefValue.run_value m' ρ')
  rw [(hagree c).1, (hagree c).2.1, (hagree c).2.2]
  exact Cert.Bridge.loss_eq _ (dec c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
